-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S800000 : Shape := ⟨1, ![800000]⟩
abbrev S8x4096x64 : Shape := ⟨3, ![8, 4096, 64]⟩
abbrev S256x256 : Shape := ⟨2, ![256, 256]⟩
abbrev S256 : Shape := ⟨1, ![256]⟩
abbrev S1 : Shape := ⟨1, ![1]⟩
abbrev S8x200000 : Shape := ⟨2, ![8, 200000]⟩
abbrev S80000 : Shape := ⟨1, ![80000]⟩
abbrev S2x800000 : Shape := ⟨2, ![2, 800000]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S8x4096x64 : S_.BroadcastsInDim S8x4096x64 (![] : Fin 0 → Fin S8x4096x64.rank)
  reducesTo_S8x4096x64_S_d0_1_2 : S8x4096x64.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_
  bcast_S_S80000 : S_.BroadcastsInDim S80000 (![] : Fin 0 → Fin S80000.rank)
  reducesTo_S80000_S_d0 : S80000.ReducesTo [0] S_
  bcast_S_S8x200000 : S_.BroadcastsInDim S8x200000 (![] : Fin 0 → Fin S8x200000.rank)
  reducesTo_S8x200000_S_d0_1 : S8x200000.ReducesTo [0, 1] S_

variable [Facts]

def fn_part3 {F : FTy → Type} [FloatOps F] (main_arg10 : IVec S8x200000 32) (main_arg11 : IVec S80000 32) (main_v48 : IVec S_ 1) (main_v50 : IVec S80000 1) : IVec S_ 1 :=
  let main_c_19 : IVec S_ 32 := constantI S_ 32 200000#32
  let main_v51 : IVec S80000 32 := broadcastInDim S80000 ![] bcast_S_S80000 main_c_19
  let main_v52 : IVec S80000 1 := cmpi .slt main_arg11 main_v51
  let main_v53 : IVec S80000 1 := andi main_v50 main_v52
  let main_c_20 : IVec S_ 1 := constantI S_ 1 1#1
  let main_v54 : IVec S_ 1 := (fun x v => Host.reduce IntOp.andi x v reducesTo_S80000_S_d0 h_S_) main_v53 main_c_20
  let main_v55 : IVec S_ 1 := andi main_v48 main_v54
  let main_c_21 : IVec S_ 32 := constantI S_ 32 0#32
  let main_v56 : IVec S8x200000 32 := broadcastInDim S8x200000 ![] bcast_S_S8x200000 main_c_21
  let main_v57 : IVec S8x200000 1 := cmpi .sge main_arg10 main_v56
  let main_c_22 : IVec S_ 32 := constantI S_ 32 4096#32
  let main_v58 : IVec S8x200000 32 := broadcastInDim S8x200000 ![] bcast_S_S8x200000 main_c_22
  let main_v59 : IVec S8x200000 1 := cmpi .slt main_arg10 main_v58
  let main_v60 : IVec S8x200000 1 := andi main_v57 main_v59
  let main_c_23 : IVec S_ 1 := constantI S_ 1 1#1
  let main_v61 : IVec S_ 1 := (fun x v => Host.reduce IntOp.andi x v reducesTo_S8x200000_S_d0_1 h_S_) main_v60 main_c_23
  let main_v62 : IVec S_ 1 := andi main_v55 main_v61
  main_v62

def fn_part2 {F : FTy → Type} [FloatOps F] (main_arg7 : FVec F S256x256 .f32) (main_arg8 : FVec F S256 .f32) (main_arg9 : FVec F S1 .f32) (main_arg10 : IVec S8x200000 32) (main_arg11 : IVec S80000 32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S80000 32 := broadcastInDim S80000 ![] bcast_S_S80000 main_c_18
  let main_v50 : IVec S80000 1 := cmpi .sge main_arg11 main_v49
  fn_part3 (F := F) main_arg10 main_arg11 main_v48 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S1 .f32) (main_arg10 : IVec S8x200000 32) (main_arg11 : IVec S80000 32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S20000x256 .f32) (main_arg1 : FVec F S800000 .f32) (main_arg2 : FVec F S8x4096x64 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S1 .f32) (main_arg10 : IVec S8x200000 32) (main_arg11 : IVec S80000 32) (main_arg12 : IVec S2x800000 32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_v13 main_v16
-- ==== Kernel.lean ====
abbrev S20000x256 : Shape := ⟨2, ![20000, 256]⟩
abbrev S800000 : Shape := ⟨1, ![800000]⟩
abbrev S8x4096x64 : Shape := ⟨3, ![8, 4096, 64]⟩
abbrev S256x256 : Shape := ⟨2, ![256, 256]⟩
abbrev S256 : Shape := ⟨1, ![256]⟩
abbrev S1 : Shape := ⟨1, ![1]⟩
abbrev S8x200000 : Shape := ⟨2, ![8, 200000]⟩
abbrev S80000 : Shape := ⟨1, ![80000]⟩
abbrev S2x800000 : Shape := ⟨2, ![2, 800000]⟩
abbrev S_ : Shape := ⟨0, ![]⟩
abbrev S80000x1 : Shape := ⟨2, ![80000, 1]⟩
abbrev S1x1 : Shape := ⟨2, ![1, 1]⟩
abbrev S8x80000 : Shape := ⟨2, ![8, 80000]⟩
abbrev S8x80000x1 : Shape := ⟨3, ![8, 80000, 1]⟩
abbrev S8x80000x64 : Shape := ⟨3, ![8, 80000, 64]⟩
abbrev S8x80000x64x1 : Shape := ⟨4, ![8, 80000, 64, 1]⟩
abbrev S1x1x1x1 : Shape := ⟨4, ![1, 1, 1, 1]⟩
abbrev S8x80000x32 : Shape := ⟨3, ![8, 80000, 32]⟩
abbrev S80000x8x32 : Shape := ⟨3, ![80000, 8, 32]⟩
abbrev S80000x256 : Shape := ⟨2, ![80000, 256]⟩
abbrev S100000x256 : Shape := ⟨2, ![100000, 256]⟩
abbrev S4000x256 : Shape := ⟨2, ![4000, 256]⟩
abbrev S1x800000 : Shape := ⟨2, ![1, 800000]⟩
abbrev S800000x1 : Shape := ⟨2, ![800000, 1]⟩
abbrev S800000x256 : Shape := ⟨2, ![800000, 256]⟩
abbrev S1x256 : Shape := ⟨2, ![1, 256]⟩
abbrev S20x1x128 : Shape := ⟨3, ![20, 1, 128]⟩
abbrev S1x1x128 : Shape := ⟨3, ![1, 1, 128]⟩
abbrev S4000 : Shape := ⟨1, ![4000]⟩
abbrev S4000x1 : Shape := ⟨2, ![4000, 1]⟩
abbrev S1x1x1 : Shape := ⟨3, ![1, 1, 1]⟩
abbrev S2000x256 : Shape := ⟨2, ![2000, 256]⟩

abbrev nBuf : Space → Nat
  | .hbm => 101
  | .vmem => 22
  | .smem => 0
  | _ => 0

abbrev bufTy : (tb : Table) → Fin (tcTables nBuf tb) → BufTy
  | .hbm, ⟨0, _⟩ => ⟨S20000x256, .f32⟩
  | .hbm, ⟨1, _⟩ => ⟨S800000, .f32⟩
  | .hbm, ⟨2, _⟩ => ⟨S8x4096x64, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1, .f32⟩
  | .hbm, ⟨10, _⟩ => ⟨S8x200000, .i32⟩
  | .hbm, ⟨11, _⟩ => ⟨S80000, .i32⟩
  | .hbm, ⟨12, _⟩ => ⟨S2x800000, .i32⟩
  | .hbm, ⟨13, _⟩ => ⟨S_, .i32⟩
  | .hbm, ⟨14, _⟩ => ⟨S80000, .i32⟩
  | .hbm, ⟨15, _⟩ => ⟨S80000, .i1⟩
  | .hbm, ⟨16, _⟩ => ⟨S_, .i32⟩
  | .hbm, ⟨17, _⟩ => ⟨S80000, .i32⟩
  | .hbm, ⟨18, _⟩ => ⟨S80000, .i32⟩
  | .hbm, ⟨19, _⟩ => ⟨S80000, .i32⟩
  | .hbm, ⟨20, _⟩ => ⟨S80000x1, .i32⟩
  | .hbm, ⟨21, _⟩ => ⟨S1, .i32⟩
  | .hbm, ⟨22, _⟩ => ⟨S_, .i32⟩
  | .hbm, ⟨23, _⟩ => ⟨S80000x1, .i32⟩
  | .hbm, ⟨24, _⟩ => ⟨S80000x1, .i1⟩
  | .hbm, ⟨25, _⟩ => ⟨S1x1, .i32⟩
  | .hbm, ⟨26, _⟩ => ⟨S80000x1, .i32⟩
  | .hbm, ⟨27, _⟩ => ⟨S80000x1, .i1⟩
  | .hbm, ⟨28, _⟩ => ⟨S80000x1, .i1⟩
  | .hbm, ⟨29, _⟩ => ⟨S_, .i1⟩
  | .hbm, ⟨30, _⟩ => ⟨S80000, .i1⟩
  | .hbm, ⟨31, _⟩ => ⟨S8x80000, .i32⟩
  | .hbm, ⟨32, _⟩ => ⟨S8x80000, .i1⟩
  | .hbm, ⟨33, _⟩ => ⟨S_, .i32⟩
  | .hbm, ⟨34, _⟩ => ⟨S8x80000, .i32⟩
  | .hbm, ⟨35, _⟩ => ⟨S8x80000, .i32⟩
  | .hbm, ⟨36, _⟩ => ⟨S8x80000x1, .i32⟩
  | .hbm, ⟨37, _⟩ => ⟨S8x80000x64, .i32⟩
  | .hbm, ⟨38, _⟩ => ⟨S_, .i32⟩
  | .hbm, ⟨39, _⟩ => ⟨S8x80000x64, .i32⟩
  | .hbm, ⟨40, _⟩ => ⟨S8x80000x64, .i1⟩
  | .hbm, ⟨41, _⟩ => ⟨S_, .i32⟩
  | .hbm, ⟨42, _⟩ => ⟨S8x80000x64, .i32⟩
  | .hbm, ⟨43, _⟩ => ⟨S8x80000x64, .i32⟩
  | .hbm, ⟨44, _⟩ => ⟨S8x80000x64, .i32⟩
  | .hbm, ⟨45, _⟩ => ⟨S8x80000x64x1, .i32⟩
  | .hbm, ⟨46, _⟩ => ⟨S1, .i32⟩
  | .hbm, ⟨47, _⟩ => ⟨S_, .i32⟩
  | .hbm, ⟨48, _⟩ => ⟨S8x80000x64x1, .i32⟩
  | .hbm, ⟨49, _⟩ => ⟨S8x80000x64x1, .i1⟩
  | .hbm, ⟨50, _⟩ => ⟨S1x1x1x1, .i32⟩
  | .hbm, ⟨51, _⟩ => ⟨S8x80000x64x1, .i32⟩
  | .hbm, ⟨52, _⟩ => ⟨S8x80000x64x1, .i1⟩
  | .hbm, ⟨53, _⟩ => ⟨S8x80000x64x1, .i1⟩
  | .hbm, ⟨54, _⟩ => ⟨S_, .i1⟩
  | .hbm, ⟨55, _⟩ => ⟨S8x80000x64, .i1⟩
  | .hbm, ⟨56, _⟩ => ⟨S8x80000x64, .f32⟩
  | .hbm, ⟨57, _⟩ => ⟨S_, .f32⟩
  | .hbm, ⟨58, _⟩ => ⟨S8x80000x64, .f32⟩
  | .hbm, ⟨59, _⟩ => ⟨S8x80000x64, .f32⟩
  | .hbm, ⟨60, _⟩ => ⟨S8x80000x32, .f32⟩
  | .hbm, ⟨61, _⟩ => ⟨S80000x8x32, .f32⟩
  | .hbm, ⟨62, _⟩ => ⟨S80000x256, .f32⟩
  | .hbm, ⟨63, _⟩ => ⟨S8x80000x32, .f32⟩
  | .hbm, ⟨64, _⟩ => ⟨S80000x8x32, .f32⟩
  | .hbm, ⟨65, _⟩ => ⟨S80000x256, .f32⟩
  | .hbm, ⟨66, _⟩ => ⟨S100000x256, .bf16⟩
  | .hbm, ⟨67, _⟩ => ⟨S1x800000, .i32⟩
  | .hbm, ⟨68, _⟩ => ⟨S800000, .i32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x256, .bf16⟩
  | .hbm, ⟨78, _⟩ => ⟨S800000x1, .f32⟩
  | .hbm, ⟨79, _⟩ => ⟨S800000x256, .f32⟩
  | .hbm, ⟨80, _⟩ => ⟨S800000x256, .f32⟩
  | .hbm, ⟨81, _⟩ => ⟨S800000x256, .f32⟩
  | .hbm, ⟨82, _⟩ => ⟨S1x800000, .i32⟩
  | .hbm, ⟨83, _⟩ => ⟨S800000, .i32⟩
  | .hbm, ⟨84, _⟩ => ⟨S_, .f32⟩
  | .hbm, ⟨85, _⟩ => ⟨S100000x256, .f32⟩
  | .hbm, ⟨86, _⟩ => ⟨S800000x1, .i32⟩
  | .hbm, ⟨87, _⟩ => ⟨S100000x256, .f32⟩
  | .hbm, ⟨88, _⟩ => ⟨S1x256, .f32⟩
  | .hbm, ⟨89, _⟩ => ⟨S100000x256, .f32⟩
  | .hbm, ⟨90, _⟩ => ⟨S100000x256, .f32⟩
  | .hbm, ⟨91, _⟩ => ⟨S80000x256, .f32⟩
  | .hbm, ⟨92, _⟩ => ⟨S20x1x128, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S20000x256, .f32⟩
  | .hbm, ⟨98, _⟩ => ⟨S256, .f32⟩
  | .hbm, ⟨99, _⟩ => ⟨S1x256, .f32⟩
  | .hbm, ⟨100, _⟩ => ⟨S20000x256, .f32⟩
  | .local _ .vmem, ⟨0, _⟩ => ⟨S4000x256, .f32⟩
  | .local _ .vmem, ⟨1, _⟩ => ⟨S4000x256, .f32⟩
  | .local _ .vmem, ⟨2, _⟩ => ⟨S4000x256, .f32⟩
  | .local _ .vmem, ⟨3, _⟩ => ⟨S4000x256, .f32⟩
  | .local _ .vmem, ⟨4, _⟩ => ⟨S256x256, .f32⟩
  | .local _ .vmem, ⟨5, _⟩ => ⟨S4000x256, .bf16⟩
  | .local _ .vmem, ⟨6, _⟩ => ⟨S4000x256, .bf16⟩
  | .local _ .vmem, ⟨7, _⟩ => ⟨S4000x256, .f32⟩
  | .local _ .vmem, ⟨8, _⟩ => ⟨S4000x256, .f32⟩
  | .local _ .vmem, ⟨9, _⟩ => ⟨S4000x256, .f32⟩
  | .local _ .vmem, ⟨10, _⟩ => ⟨S4000x256, .f32⟩
  | .local _ .vmem, ⟨11, _⟩ => ⟨S1x1x128, .f32⟩
  | .local _ .vmem, ⟨12, _⟩ => ⟨S1x1x128, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S256x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_c_4 : Ref sig .tc := ⟨.hbm, 33, rfl⟩
abbrev main_call0_v15 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_cst : Ref sig .tc := ⟨.hbm, 57, rfl⟩
abbrev main_call1_v14 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_c : Ref sig .tc := ⟨.hbm, 69, rfl⟩
abbrev main_v13 : Ref sig .tc := ⟨.hbm, 70, rfl⟩
abbrev main_v14 : Ref sig .tc := ⟨.hbm, 71, rfl⟩
abbrev main_c_0 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_cst : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_cst_1 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S80000 : S_.BroadcastsInDim S80000 (![] : Fin 0 → Fin S80000.rank)
  bcast_S80000_S80000x1_0 : S80000.BroadcastsInDim S80000x1 (![0] : Fin 1 → Fin S80000x1.rank)
  bcast_S_S80000x1 : S_.BroadcastsInDim S80000x1 (![] : Fin 0 → Fin S80000x1.rank)
  bcast_S1_S1x1_1 : S1.BroadcastsInDim S1x1 (![1] : Fin 1 → Fin S1x1.rank)
  bcast_S1x1_S80000x1_0_1 : S1x1.BroadcastsInDim S80000x1 (![0, 1] : Fin 2 → Fin S80000x1.rank)
  reducesTo_S80000x1_S80000_d1 : S80000x1.ReducesTo [1] S80000
  h_S_ : 0 < S_.numel
  bcast_S80000_S8x80000_1 : S80000.BroadcastsInDim S8x80000 (![1] : Fin 1 → Fin S8x80000.rank)
  bcast_S_S8x80000 : S_.BroadcastsInDim S8x80000 (![] : Fin 0 → Fin S8x80000.rank)
  bcast_S8x80000_S8x80000x1_0_1 : S8x80000.BroadcastsInDim S8x80000x1 (![0, 1] : Fin 2 → Fin S8x80000x1.rank)
  bcast_S8x80000x1_S8x80000x64_0_1_2 : S8x80000x1.BroadcastsInDim S8x80000x64 (![0, 1, 2] : Fin 3 → Fin S8x80000x64.rank)
  bcast_S_S8x80000x64 : S_.BroadcastsInDim S8x80000x64 (![] : Fin 0 → Fin S8x80000x64.rank)
  shapeCasts_S8x80000x64_S8x80000x64x1 : S8x80000x64.ShapeCasts S8x80000x64x1
  bcast_S_S8x80000x64x1 : S_.BroadcastsInDim S8x80000x64x1 (![] : Fin 0 → Fin S8x80000x64x1.rank)
  bcast_S1_S1x1x1x1_3 : S1.BroadcastsInDim S1x1x1x1 (![3] : Fin 1 → Fin S1x1x1x1.rank)
  bcast_S1x1x1x1_S8x80000x64x1_0_1_2_3 : S1x1x1x1.BroadcastsInDim S8x80000x64x1 (![0, 1, 2, 3] : Fin 4 → Fin S8x80000x64x1.rank)
  reducesTo_S8x80000x64x1_S8x80000x64_d3 : S8x80000x64x1.ReducesTo [3] S8x80000x64
  slices_S8x80000x64_S8x80000x32_0_0_0 : S8x80000x64.Slices ![0, 0, 0] S8x80000x32
  transposes_S8x80000x32_S80000x8x32_1_0_2 : S8x80000x32.Transposes [1, 0, 2] S80000x8x32
  shapeCasts_S80000x8x32_S80000x256 : S80000x8x32.ShapeCasts S80000x256
  slices_S8x80000x64_S8x80000x32_0_0_32 : S8x80000x64.Slices ![0, 0, 32] S8x80000x32
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S4000x256_S4000x256_0_0 : (Rect.unit (s := S4000x256) ![0, 0] S4000x256.size inb_S4000x256_S4000x256_0_0).PackedRows (EltTy.packing .bf16)
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  slices_S2x800000_S1x800000_1_0 : S2x800000.Slices ![1, 0] S1x800000
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S100000x256_S80000x256_20000_0 : S100000x256.Slices ![20000, 0] S80000x256
  reduces_S4000x256_S4000 : S4000x256.Reduces [1] S4000
  shapeCasts_S4000_S4000x1 : S4000.ShapeCasts S4000x1
  reduces_S4000x1_S1 : S4000x1.Reduces [0] S1
  shapeCasts_S1_S1x1 : S1.ShapeCasts S1x1
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  reducesTo_S20x1x128_S_d0_1_2 : S20x1x128.ReducesTo [0, 1, 2] S_
  shapeCasts_S1_S_ : S1.ShapeCasts S_
  slices_S100000x256_S20000x256_0_0 : S100000x256.Slices ![0, 0] S20000x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  gather_S8x200000_S80000x1_S8x80000_0_1_n_n_1_1_81_wf : GatherDims.WF S8x200000 S80000x1 S8x80000 [0] [1] [] [1] [] 1 ![8, 1]
  gather_S8x4096x64_S8x80000x64x1_S8x80000x64_n_1_02_02_1_3_111_wf : GatherDims.WF S8x4096x64 S8x80000x64x1 S8x80000x64 [] [1] [0, 2] [1] [0, 2] 3 ![1, 1, 1]
  dot_S4000x256_S256x256_S4000x256_1_0_0_1_n_n_wf : DotDims.WF S4000x256 S256x256 S4000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S20000x256.size a
  hwx0_0 : ∀ i : grid0.Coords, EltTy.bits .f32 = 32 ∨ (Rect.block (s := S20000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S80000x256.size a
  hwx0_1 : ∀ i : grid0.Coords, EltTy.bits .f32 = 32 ∨ (Rect.block (s := S80000x256) S4000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S100000x256.size a
  hwx0_3 : ∀ i : grid0.Coords, EltTy.bits .bf16 = 32 ∨ (Rect.block (s := S100000x256) S4000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S80000x256.size a
  hwx1_0 : ∀ i : grid1.Coords, EltTy.bits .f32 = 32 ∨ (Rect.block (s := S80000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S80000x256.size a
  hwx1_1 : ∀ i : grid1.Coords, EltTy.bits .f32 = 32 ∨ (Rect.block (s := S80000x256) S4000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S20x1x128.size a
  hwx1_2 : ∀ i : grid1.Coords, EltTy.bits .f32 = 32 ∨ (Rect.block (s := S20x1x128) S1x1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .f32 = 32 ∨ (Rect.block (s := S20000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S20000x256.size a
  hwx2_5 : ∀ i : grid2.Coords, EltTy.bits .f32 = 32 ∨ (Rect.block (s := S20000x256) S2000x256.size (cc2_transform_5 i) (hinb2_5 i)).WholeWords (EltTy.packing .f32)

variable [Facts₀]

def gather_S8x200000_S80000x1_S8x80000_0_1_n_n_1_1_81 : GatherDims S8x200000 S80000x1 S8x80000 where
  offsetDims := [0]
  collapsedSliceDims := [1]
  operandBatchingDims := []
  startIndicesBatchingDims := []
  startIndexMap := [1]
  indexVectorDim := 1
  sliceSizes := ![8, 1]
  wf := gather_S8x200000_S80000x1_S8x80000_0_1_n_n_1_1_81_wf
def gather_S8x4096x64_S8x80000x64x1_S8x80000x64_n_1_02_02_1_3_111 : GatherDims S8x4096x64 S8x80000x64x1 S8x80000x64 where
  offsetDims := []
  collapsedSliceDims := [1]
  operandBatchingDims := [0, 2]
  startIndicesBatchingDims := [0, 2]
  startIndexMap := [1]
  indexVectorDim := 3
  sliceSizes := ![1, 1, 1]
  wf := gather_S8x4096x64_S8x80000x64x1_S8x80000x64_n_1_02_02_1_3_111_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x1x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v37) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S20000x256 : Shape := ⟨2, ![20000, 256]⟩
abbrev S800000 : Shape := ⟨1, ![800000]⟩
abbrev S8x4096x64 : Shape := ⟨3, ![8, 4096, 64]⟩
abbrev S256x256 : Shape := ⟨2, ![256, 256]⟩
abbrev S256 : Shape := ⟨1, ![256]⟩
abbrev S1 : Shape := ⟨1, ![1]⟩
abbrev S8x200000 : Shape := ⟨2, ![8, 200000]⟩
abbrev S80000 : Shape := ⟨1, ![80000]⟩
abbrev S2x800000 : Shape := ⟨2, ![2, 800000]⟩
abbrev S_ : Shape := ⟨0, ![]⟩
abbrev S80000x1 : Shape := ⟨2, ![80000, 1]⟩
abbrev S8x80000 : Shape := ⟨2, ![8, 80000]⟩
abbrev S8 : Shape := ⟨1, ![8]⟩
abbrev S8x1 : Shape := ⟨2, ![8, 1]⟩
abbrev S8x80000x1 : Shape := ⟨3, ![8, 80000, 1]⟩
abbrev S8x80000x2 : Shape := ⟨3, ![8, 80000, 2]⟩
abbrev S8x80000x64 : Shape := ⟨3, ![8, 80000, 64]⟩
abbrev S8x80000x32 : Shape := ⟨3, ![8, 80000, 32]⟩
abbrev S80000x8x32 : Shape := ⟨3, ![80000, 8, 32]⟩
abbrev S80000x256 : Shape := ⟨2, ![80000, 256]⟩
abbrev S100000x256 : Shape := ⟨2, ![100000, 256]⟩
abbrev S1x800000 : Shape := ⟨2, ![1, 800000]⟩
abbrev S800000x1 : Shape := ⟨2, ![800000, 1]⟩
abbrev S800000x256 : Shape := ⟨2, ![800000, 256]⟩
abbrev S1x256 : Shape := ⟨2, ![1, 256]⟩

abbrev nBuf : Space → Nat
  | .hbm => 90
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S800000, .f32⟩
  | .hbm, ⟨2, _⟩ => ⟨S8x4096x64, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1, .f32⟩
  | .hbm, ⟨10, _⟩ => ⟨S8x200000, .i32⟩
  | .hbm, ⟨11, _⟩ => ⟨S80000, .i32⟩
  | .hbm, ⟨12, _⟩ => ⟨S2x800000, .i32⟩
  | .hbm, ⟨13, _⟩ => ⟨S_, .i32⟩
  | .hbm, ⟨14, _⟩ => ⟨S80000, .i32⟩
  | .hbm, ⟨15, _⟩ => ⟨S80000, .i1⟩
  | .hbm, ⟨16, _⟩ => ⟨S_, .i32⟩
  | .hbm, ⟨17, _⟩ => ⟨S80000, .i32⟩
  | .hbm, ⟨18, _⟩ => ⟨S80000, .i32⟩
  | .hbm, ⟨19, _⟩ => ⟨S80000, .i32⟩
  | .hbm, ⟨20, _⟩ => ⟨S80000x1, .i32⟩
  | .hbm, ⟨21, _⟩ => ⟨S8x80000, .i32⟩
  | .hbm, ⟨22, _⟩ => ⟨S8, .i32⟩
  | .hbm, ⟨23, _⟩ => ⟨S8x1, .i32⟩
  | .hbm, ⟨24, _⟩ => ⟨S_, .i32⟩
  | .hbm, ⟨25, _⟩ => ⟨S8x1, .i32⟩
  | .hbm, ⟨26, _⟩ => ⟨S8x1, .i1⟩
  | .hbm, ⟨27, _⟩ => ⟨S_, .i32⟩
  | .hbm, ⟨28, _⟩ => ⟨S8x1, .i32⟩
  | .hbm, ⟨29, _⟩ => ⟨S8x1, .i32⟩
  | .hbm, ⟨30, _⟩ => ⟨S8x1, .i32⟩
  | .hbm, ⟨31, _⟩ => ⟨S_, .i32⟩
  | .hbm, ⟨32, _⟩ => ⟨S8x80000, .i32⟩
  | .hbm, ⟨33, _⟩ => ⟨S8x80000, .i1⟩
  | .hbm, ⟨34, _⟩ => ⟨S_, .i32⟩
  | .hbm, ⟨35, _⟩ => ⟨S8x80000, .i32⟩
  | .hbm, ⟨36, _⟩ => ⟨S8x80000, .i32⟩
  | .hbm, ⟨37, _⟩ => ⟨S8x80000, .i32⟩
  | .hbm, ⟨38, _⟩ => ⟨S8x80000, .i32⟩
  | .hbm, ⟨39, _⟩ => ⟨S8x80000x1, .i32⟩
  | .hbm, ⟨40, _⟩ => ⟨S8x80000x1, .i32⟩
  | .hbm, ⟨41, _⟩ => ⟨S8x80000x2, .i32⟩
  | .hbm, ⟨42, _⟩ => ⟨S8x80000x64, .f32⟩
  | .hbm, ⟨43, _⟩ => ⟨S8x80000x32, .f32⟩
  | .hbm, ⟨44, _⟩ => ⟨S80000x8x32, .f32⟩
  | .hbm, ⟨45, _⟩ => ⟨S80000x256, .f32⟩
  | .hbm, ⟨46, _⟩ => ⟨S8x80000x32, .f32⟩
  | .hbm, ⟨47, _⟩ => ⟨S80000x8x32, .f32⟩
  | .hbm, ⟨48, _⟩ => ⟨S80000x256, .f32⟩
  | .hbm, ⟨49, _⟩ => ⟨S100000x256, .f32⟩
  | .hbm, ⟨50, _⟩ => ⟨S100000x256, .f32⟩
  | .hbm, ⟨51, _⟩ => ⟨S1x800000, .i32⟩
  | .hbm, ⟨52, _⟩ => ⟨S800000, .i32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x256, .f32⟩
  | .hbm, ⟨62, _⟩ => ⟨S800000x1, .f32⟩
  | .hbm, ⟨63, _⟩ => ⟨S800000x256, .f32⟩
  | .hbm, ⟨64, _⟩ => ⟨S800000x256, .f32⟩
  | .hbm, ⟨65, _⟩ => ⟨S1x800000, .i32⟩
  | .hbm, ⟨66, _⟩ => ⟨S800000, .i32⟩
  | .hbm, ⟨67, _⟩ => ⟨S_, .f32⟩
  | .hbm, ⟨68, _⟩ => ⟨S100000x256, .f32⟩
  | .hbm, ⟨69, _⟩ => ⟨S800000x1, .i32⟩
  | .hbm, ⟨70, _⟩ => ⟨S100000x256, .f32⟩
  | .hbm, ⟨71, _⟩ => ⟨S1x256, .f32⟩
  | .hbm, ⟨72, _⟩ => ⟨S100000x256, .f32⟩
  | .hbm, ⟨73, _⟩ => ⟨S100000x256, .f32⟩
  | .hbm, ⟨74, _⟩ => ⟨S80000x256, .f32⟩
  | .hbm, ⟨75, _⟩ => ⟨S80000x256, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S20000x256, .f32⟩
  | .hbm, ⟨81, _⟩ => ⟨S20000x256, .f32⟩
  | .hbm, ⟨82, _⟩ => ⟨S1x256, .f32⟩
  | .hbm, ⟨83, _⟩ => ⟨S20000x256, .f32⟩
  | .hbm, ⟨84, _⟩ => ⟨S20000x256, .f32⟩
  | .hbm, ⟨85, _⟩ => ⟨S20000x256, .f32⟩
  | .hbm, ⟨86, _⟩ => ⟨S1x256, .f32⟩
  | .hbm, ⟨87, _⟩ => ⟨S20000x256, .f32⟩
  | .hbm, ⟨88, _⟩ => ⟨S20000x256, .f32⟩
  | .hbm, ⟨89, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]

class Facts₀ : Prop where
  bcast_S_S80000 : S_.BroadcastsInDim S80000 (![] : Fin 0 → Fin S80000.rank)
  bcast_S80000_S80000x1_0 : S80000.BroadcastsInDim S80000x1 (![0] : Fin 1 → Fin S80000x1.rank)
  bcast_S8_S8x1_0 : S8.BroadcastsInDim S8x1 (![0] : Fin 1 → Fin S8x1.rank)
  bcast_S_S8x1 : S_.BroadcastsInDim S8x1 (![] : Fin 0 → Fin S8x1.rank)
  bcast_S_S8x80000 : S_.BroadcastsInDim S8x80000 (![] : Fin 0 → Fin S8x80000.rank)
  bcast_S8x1_S8x80000_0_1 : S8x1.BroadcastsInDim S8x80000 (![0, 1] : Fin 2 → Fin S8x80000.rank)
  bcast_S8x80000_S8x80000x1_0_1 : S8x80000.BroadcastsInDim S8x80000x1 (![0, 1] : Fin 2 → Fin S8x80000x1.rank)
  concatenates_S8x80000x1_S8x80000x1_S8x80000x2_d2 : Shape.Concatenates [S8x80000x1, S8x80000x1] S8x80000x2 2
  slices_S8x80000x64_S8x80000x32_0_0_0 : S8x80000x64.Slices ![0, 0, 0] S8x80000x32
  transposes_S8x80000x32_S80000x8x32_1_0_2 : S8x80000x32.Transposes [1, 0, 2] S80000x8x32
  shapeCasts_S80000x8x32_S80000x256 : S80000x8x32.ShapeCasts S80000x256
  slices_S8x80000x64_S8x80000x32_0_0_32 : S8x80000x64.Slices ![0, 0, 32] S8x80000x32
  concatenates_S20000x256_S80000x256_S100000x256_d0 : Shape.Concatenates [S20000x256, S80000x256] S100000x256 0
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  slices_S2x800000_S1x800000_1_0 : S2x800000.Slices ![1, 0] S1x800000
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S100000x256_S80000x256_20000_0 : S100000x256.Slices ![20000, 0] S80000x256
  reducesTo_S80000x256_S_d0_1 : S80000x256.ReducesTo [0, 1] S_
  h_S_ : 0 < S_.numel
  shapeCasts_S1_S_ : S1.ShapeCasts S_
  slices_S100000x256_S20000x256_0_0 : S100000x256.Slices ![0, 0] S20000x256
  bcast_S1x256_S20000x256_0_1 : S1x256.BroadcastsInDim S20000x256 (![0, 1] : Fin 2 → Fin S20000x256.rank)
  gather_S8x200000_S80000x1_S8x80000_0_1_n_n_1_1_81_wf : GatherDims.WF S8x200000 S80000x1 S8x80000 [0] [1] [] [1] [] 1 ![8, 1]
  gather_S8x4096x64_S8x80000x2_S8x80000x64_2_01_n_n_01_2_1164_wf : GatherDims.WF S8x4096x64 S8x80000x2 S8x80000x64 [2] [0, 1] [] [0, 1] [] 2 ![1, 1, 64]
  dot_S100000x256_S256x256_S100000x256_1_0_0_1_n_n_wf : DotDims.WF S100000x256 S256x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S20000x256_S256x256_S20000x256_1_0_0_1_n_n_wf : DotDims.WF S20000x256 S256x256 S20000x256 [1] [0] [0] [1] [] []

variable [Facts₀]

def gather_S8x200000_S80000x1_S8x80000_0_1_n_n_1_1_81 : GatherDims S8x200000 S80000x1 S8x80000 where
  offsetDims := [0]
  collapsedSliceDims := [1]
  operandBatchingDims := []
  startIndicesBatchingDims := []
  startIndexMap := [1]
  indexVectorDim := 1
  sliceSizes := ![8, 1]
  wf := gather_S8x200000_S80000x1_S8x80000_0_1_n_n_1_1_81_wf
def gather_S8x4096x64_S8x80000x2_S8x80000x64_2_01_n_n_01_2_1164 : GatherDims S8x4096x64 S8x80000x2 S8x80000x64 where
  offsetDims := [2]
  collapsedSliceDims := [0, 1]
  operandBatchingDims := []
  startIndicesBatchingDims := []
  startIndexMap := [0, 1]
  indexVectorDim := 2
  sliceSizes := ![1, 1, 64]
  wf := gather_S8x4096x64_S8x80000x2_S8x80000x64_2_01_n_n_01_2_1164_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.LookupK.lean ====
/-
  The kernel program's codebook lookup, as two named functions (the kernel's own host operations, composed).
  `codesK`: the code table's columns at the neighbours' positions, with a fill: where a position is outside
  [0, 199999] the whole column is the smallest 32-bit integer instead. `lookupK`: entry (b, n, e) is the codebook at
  (b, code[b, n], e), again with a fill: where the code is outside [0, 4095] the entry is a NaN instead.
-/
import proofs.«431223_j103079215401_2_alg».proof.KernelIdeal
import proofs.«431223_j103079215401_2_alg».proof.Proof.Gen.KernelIdeal

noncomputable section

namespace Cert.LookupK

open Cert.KernelIdeal Cert.KernelIdeal.Gen Idealize.ShloMosaic

variable {F : FTy → Type} [FloatOps F]

/-- The neighbours' positions, negative ones counted from the end, as a column of start indices. -/
def posK (foi : IVec S80000 32) : IVec S80000x1 32 :=
  broadcastInDim S80000x1 ![0] bcast_S80000_S80000x1_0 (select (cmpi .slt foi (broadcastInDim S80000 ![] bcast_S_S80000 (constantI S_ 32 0#32))) (addi foi (broadcastInDim S80000 ![] bcast_S_S80000 (constantI S_ 32 200000#32))) foi)

/-- Whether each position lies in [0, 199999]. -/
def posOkK (foi : IVec S80000 32) : IVec S80000 1 :=
  Host.reduce IntOp.andi (andi (cmpi .sge (posK foi) (broadcastInDim S80000x1 ![] bcast_S_S80000x1 (constantI S_ 32 0#32))) (cmpi .sle (posK foi) (broadcastInDim S80000x1 ![0, 1] bcast_S1x1_S80000x1_0_1 (broadcastInDim S1x1 ![1] bcast_S1_S1x1_1 (constantI S1 32 199999#32))))) (constantI S_ 1 1#1) reducesTo_S80000x1_S80000_d1 h_S_

/-- The codes with the fill. -/
def codesK (ci : IVec S8x200000 32) (foi : IVec S80000 32) : IVec S8x80000 32 :=
  select (broadcastInDim S8x80000 ![1] bcast_S80000_S8x80000_1 (posOkK foi)) (Host.gather gather_S8x200000_S80000x1_S8x80000_0_1_n_n_1_1_81 ci (posK foi)) (broadcastInDim S8x80000 ![] bcast_S_S8x80000 (constantI S_ 32 2147483648#32))

/-- The codes laid along the 64 entries of a codebook row, negative ones counted from the end, as start indices. -/
def codeIdxK (cd : IVec S8x80000 32) : IVec S8x80000x64x1 32 :=
  shapeCast _ (select (cmpi .slt (broadcastInDim S8x80000x64 ![0, 1, 2] bcast_S8x80000x1_S8x80000x64_0_1_2 (broadcastInDim S8x80000x1 ![0, 1] bcast_S8x80000_S8x80000x1_0_1 cd)) (broadcastInDim S8x80000x64 ![] bcast_S_S8x80000x64 (constantI S_ 32 0#32))) (addi (broadcastInDim S8x80000x64 ![0, 1, 2] bcast_S8x80000x1_S8x80000x64_0_1_2 (broadcastInDim S8x80000x1 ![0, 1] bcast_S8x80000_S8x80000x1_0_1 cd)) (broadcastInDim S8x80000x64 ![] bcast_S_S8x80000x64 (constantI S_ 32 4096#32))) (broadcastInDim S8x80000x64 ![0, 1, 2] bcast_S8x80000x1_S8x80000x64_0_1_2 (broadcastInDim S8x80000x1 ![0, 1] bcast_S8x80000_S8x80000x1_0_1 cd))) shapeCasts_S8x80000x64_S8x80000x64x1

/-- Whether each code lies in [0, 4095]. -/
def codeOkK (cd : IVec S8x80000 32) : IVec S8x80000x64 1 :=
  Host.reduce IntOp.andi (andi (cmpi .sge (codeIdxK cd) (broadcastInDim S8x80000x64x1 ![] bcast_S_S8x80000x64x1 (constantI S_ 32 0#32))) (cmpi .sle (codeIdxK cd) (broadcastInDim S8x80000x64x1 ![0, 1, 2, 3] bcast_S1x1x1x1_S8x80000x64x1_0_1_2_3 (broadcastInDim S1x1x1x1 ![3] bcast_S1_S1x1x1x1_3 (constantI S1 32 4095#32))))) (constantI S_ 1 1#1) reducesTo_S8x80000x64x1_S8x80000x64_d3 h_S_

/-- The lookup with the fill. -/
def lookupK (cb : FVec F S8x4096x64 .f32) (cd : IVec S8x80000 32) : FVec F S8x80000x64 .f32 :=
  select (codeOkK cd) (Host.gather gather_S8x4096x64_S8x80000x64x1_S8x80000x64_n_1_02_02_1_3_111 cb (codeIdxK cd)) (broadcastInDim S8x80000x64 ![] bcast_S_S8x80000x64 (constant S_ .f32 0x7FC00000#32))

end Cert.LookupK

end
-- ==== Proof.KLookup.lean ====
/-
  The kernel program's second and third host stretches leave in the lookup's buffer the filled lookup of the codebook
  and the codes they find there: the stretches' operations composed, the intermediate buffers read back one after
  another.
-/
import proofs.«431223_j103079215401_2_alg».proof.Proof.Gen.KernelIdeal.Launch
import proofs.«431223_j103079215401_2_alg».proof.Proof.LookupK
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]

section Typed
variable {τ : Topo} {sig : RefSig} {Val : EltTy → Type} {T Tx Ta Tb Tc Ty : BufTy}

/-- What a valuation holds at a typed reference's buffer, at the value's own type. -/
def rd (x : TRef sig T) (G : Valuation τ sig Val) : T.Contents Val := x.ofBuf (G (Proc.devRef .tc x.ref))

theorem rd_nullary_self (y : TRef sig Ty) (v : Ty.Contents Val) (G : Valuation τ sig Val) :
    rd y ((no_index (TRef.nullary y v) : HloOp τ sig Val).result G) = v := by
  obtain ⟨r, rfl, hd, hs⟩ := y
  unfold rd
  rw [nullary_result]
  rfl

theorem rd_nullary_ne (z : TRef sig T) (y : TRef sig Ty) (v : Ty.Contents Val) (G : Valuation τ sig Val) (h : z.ref ≠ y.ref) :
    rd z ((no_index (TRef.nullary y v) : HloOp τ sig Val).result G) = rd z G := by
  exact congrArg z.ofBuf (nullary_result_ne _ _ _ G h)

theorem rd_unary_self (x : TRef sig Tx) (y : TRef sig Ty) (f : Tx.Contents Val → Ty.Contents Val) (G : Valuation τ sig Val) :
    rd y ((no_index (TRef.unary x y f) : HloOp τ sig Val).result G) = f (rd x G) := by
  obtain ⟨rx, rfl, hdx, hsx⟩ := x
  obtain ⟨ry, rfl, hdy, hsy⟩ := y
  unfold rd
  rw [unary_result]
  rfl

theorem rd_unary_ne (z : TRef sig T) (x : TRef sig Tx) (y : TRef sig Ty) (f : Tx.Contents Val → Ty.Contents Val)
    (G : Valuation τ sig Val) (h : z.ref ≠ y.ref) :
    rd z ((no_index (TRef.unary x y f) : HloOp τ sig Val).result G) = rd z G := by
  exact congrArg z.ofBuf (unary_result_ne _ _ _ _ _ G h)

theorem rd_binary_self (a : TRef sig Ta) (b : TRef sig Tb) (y : TRef sig Ty)
    (f : Ta.Contents Val → Tb.Contents Val → Ty.Contents Val) (G : Valuation τ sig Val) :
    rd y ((no_index (TRef.binary a b y f) : HloOp τ sig Val).result G) = f (rd a G) (rd b G) := by
  obtain ⟨ra, rfl, hda, hsa⟩ := a
  obtain ⟨rb, rfl, hdb, hsb⟩ := b
  obtain ⟨ry, rfl, hdy, hsy⟩ := y
  unfold rd
  rw [binary_result]
  rfl

theorem rd_binary_ne (z : TRef sig T) (a : TRef sig Ta) (b : TRef sig Tb) (y : TRef sig Ty)
    (f : Ta.Contents Val → Tb.Contents Val → Ty.Contents Val) (G : Valuation τ sig Val) (h : z.ref ≠ y.ref) :
    rd z ((no_index (TRef.binary a b y f) : HloOp τ sig Val).result G) = rd z G := by
  exact congrArg z.ofBuf (binary_result_ne _ _ _ _ _ _ _ G h)

theorem rd_ternary_self (c : TRef sig Tc) (a : TRef sig Ta) (b : TRef sig Tb) (y : TRef sig Ty)
    (f : Tc.Contents Val → Ta.Contents Val → Tb.Contents Val → Ty.Contents Val) (G : Valuation τ sig Val) :
    rd y ((no_index (TRef.ternary c a b y f) : HloOp τ sig Val).result G) = f (rd c G) (rd a G) (rd b G) := by
  obtain ⟨rc, rfl, hdc, hsc⟩ := c
  obtain ⟨ra, rfl, hda, hsa⟩ := a
  obtain ⟨rb, rfl, hdb, hsb⟩ := b
  obtain ⟨ry, rfl, hdy, hsy⟩ := y
  unfold rd
  rw [ternary_result]
  rfl

theorem rd_ternary_ne (z : TRef sig T) (c : TRef sig Tc) (a : TRef sig Ta) (b : TRef sig Tb) (y : TRef sig Ty)
    (f : Tc.Contents Val → Ta.Contents Val → Tb.Contents Val → Ty.Contents Val) (G : Valuation τ sig Val) (h : z.ref ≠ y.ref) :
    rd z ((no_index (TRef.ternary c a b y f) : HloOp τ sig Val).result G) = rd z G := by
  exact congrArg z.ofBuf (ternary_result_ne _ _ _ _ _ _ _ _ _ G h)

theorem rd_reshape_self (x : TRef sig Tx) (y : TRef sig Ty) (he : Tx.elt = Ty.elt) (hn : Tx.shape.ShapeCasts Ty.shape)
    (G : Valuation τ sig Val) :
    rd y ((no_index (TRef.reshape x y he hn) : HloOp τ sig Val).result G) = fun i => he ▸ shapeCast Ty.shape (rd x G) hn i := by
  obtain ⟨rx, rfl, hdx, hsx⟩ := x
  obtain ⟨ry, rfl, hdy, hsy⟩ := y
  unfold rd
  rw [reshape_result]
  rfl

theorem rd_reshape_ne (z : TRef sig T) (x : TRef sig Tx) (y : TRef sig Ty) (he : Tx.elt = Ty.elt) (hn : Tx.shape.ShapeCasts Ty.shape)
    (G : Valuation τ sig Val) (h : z.ref ≠ y.ref) :
    rd z ((no_index (TRef.reshape x y he hn) : HloOp τ sig Val).result G) = rd z G := by
  exact congrArg z.ofBuf (reshape_result_ne _ _ _ _ _ _ G h)

end Typed

/-- The second and third stretches leave the lookup (with its fill) of the codebook and the codes they find. -/
theorem ops0_2_v3 (V : Valuation τ sig (Elt F)) :
    StableHlo.after hostOps0_2 (StableHlo.after hostOps0_1 V) (Proc.devRef .tc main_v3)
      = Cert.LookupK.lookupK (V (Proc.devRef .tc main_arg2)) (V (Proc.devRef .tc main_v0)) := by
  have h2 : StableHlo.after hostOps0_1 V (Proc.devRef .tc main_v2)
      = broadcastInDim S8x80000x64 ![0, 1, 2] bcast_S8x80000x1_S8x80000x64_0_1_2 (broadcastInDim S8x80000x1 ![0, 1] bcast_S8x80000_S8x80000x1_0_1 (V (Proc.devRef .tc main_v0))) := by
    after_results_simp
  have ha : StableHlo.after hostOps0_1 V (Proc.devRef .tc main_arg2) = V (Proc.devRef .tc main_arg2) := by
    after_results_simp
  generalize StableHlo.after hostOps0_1 V = G at h2 ha ⊢
  have e3 : ∀ W : Valuation τ sig (Elt F),
      W (Proc.devRef .tc main_v3) = rd (TRef.of main_v3 : TRef sig ⟨S8x80000x64, .f32⟩) W := fun W => rfl
  have e2 : rd (TRef.of main_v2 : TRef sig ⟨S8x80000x64, .i32⟩) G = G (Proc.devRef .tc main_v2) := rfl
  have ea : rd (TRef.of main_arg2 : TRef sig ⟨S8x4096x64, .f32⟩) G = G (Proc.devRef .tc main_arg2) := rfl
  refine (e3 _).trans ?_
  simp (disch := decide) only [after_cons, after_nil,
    rd_nullary_self, rd_unary_self, rd_binary_self, rd_ternary_self, rd_reshape_self,
    rd_nullary_ne, rd_unary_ne, rd_binary_ne, rd_ternary_ne, rd_reshape_ne]
  rw [e2, ea, h2, ha]
  rfl

end Cert.KernelIdeal.Chain

end
-- ==== Proof.Shared.lean ====
/-
  The host stages both programs share, each as one named function of its operands (the reference's own operations,
  composed): the neighbour rows' codebook lookup, the split of a looked-up codebook entry into its feature half and
  its gradient half laid out as [80000, 256] rows, the linear stage on the stacked rows, the edge aggregation
  (gather the source rows, scale by the edge weight, add into the destination rows, add the bias), the two row ranges
  of the aggregate, the output transform and the scalar term. Naming them lets the two programs be compared stage by
  stage: where both apply the same stage to equal operands nothing has to be opened.
-/
import proofs.«431223_j103079215401_2_alg».proof.ReferenceIdeal
import proofs.«431223_j103079215401_2_alg».proof.Proof.Gen.ReferenceIdeal

noncomputable section

namespace Cert.Shared

open Cert.ReferenceIdeal Cert.ReferenceIdeal.Gen Idealize.ShloMosaic

variable {F : FTy → Type} [FloatOps F]

/-- A position list with negative entries counted from the end (entry + 200000 where the entry is negative), as a
    column of start indices. -/
def normIdx (foi : IVec S80000 32) : IVec S80000x1 32 :=
  broadcastInDim S80000x1 ![0] bcast_S80000_S80000x1_0 (select (cmpi .slt foi (broadcastInDim S80000 ![] bcast_S_S80000 (constantI S_ 32 0#32))) (addi foi (broadcastInDim S80000 ![] bcast_S_S80000 (constantI S_ 32 200000#32))) foi)

/-- The code of each neighbour in each branch: the code table's columns at the neighbours' positions. -/
def codes (ci : IVec S8x200000 32) (foi : IVec S80000 32) : IVec S8x80000 32 :=
  Host.gather gather_S8x200000_S80000x1_S8x80000_0_1_n_n_1_1_81 ci (normIdx foi)

/-- The reference's lookup: entry (b, n, e) is the codebook at (b, code of neighbour n in branch b, e), through a gather
    whose start indices are the pairs (branch, code). -/
def lookupRef (cb : FVec F S8x4096x64 .f32) (cd : IVec S8x80000 32) : FVec F S8x80000x64 .f32 :=
  Host.gather gather_S8x4096x64_S8x80000x2_S8x80000x64_2_01_n_n_01_2_1164 cb (concatenate S8x80000x2 2 [⟨S8x80000x1, (broadcastInDim S8x80000x1 ![0, 1] bcast_S8x80000_S8x80000x1_0_1 (broadcastInDim S8x80000 ![0, 1] bcast_S8x1_S8x80000_0_1 (select (cmpi .slt (broadcastInDim S8x1 ![0] bcast_S8_S8x1_0 (iotaInDim S8 32 0)) (broadcastInDim S8x1 ![] bcast_S_S8x1 (constantI S_ 32 0#32))) (addi (broadcastInDim S8x1 ![0] bcast_S8_S8x1_0 (iotaInDim S8 32 0)) (broadcastInDim S8x1 ![] bcast_S_S8x1 (constantI S_ 32 8#32))) (broadcastInDim S8x1 ![0] bcast_S8_S8x1_0 (iotaInDim S8 32 0)))))⟩, ⟨S8x80000x1, (broadcastInDim S8x80000x1 ![0, 1] bcast_S8x80000_S8x80000x1_0_1 (select (cmpi .slt cd (broadcastInDim S8x80000 ![] bcast_S_S8x80000 (constantI S_ 32 0#32))) (addi cd (broadcastInDim S8x80000 ![] bcast_S_S8x80000 (constantI S_ 32 4096#32))) cd))⟩] concatenates_S8x80000x1_S8x80000x1_S8x80000x2_d2)

/-- The feature half (entries 0 … 31 of each looked-up codebook row), the branches laid side by side: [80000, 8·32]. -/
def splitX (v : FVec F S8x80000x64 .f32) : FVec F S80000x256 .f32 :=
  shapeCast _ (transpose S80000x8x32 [1, 0, 2] (extractStridedSlice S8x80000x32 ![0, 0, 0] v slices_S8x80000x64_S8x80000x32_0_0_0) transposes_S8x80000x32_S80000x8x32_1_0_2) shapeCasts_S80000x8x32_S80000x256

/-- The gradient half (entries 32 … 63), laid out the same way. -/
def splitG (v : FVec F S8x80000x64 .f32) : FVec F S80000x256 .f32 :=
  shapeCast _ (transpose S80000x8x32 [1, 0, 2] (extractStridedSlice S8x80000x32 ![0, 0, 32] v slices_S8x80000x64_S8x80000x32_0_0_32) transposes_S8x80000x32_S80000x8x32_1_0_2) shapeCasts_S80000x8x32_S80000x256

/-- The reference's linear stage: the batch rows stacked over the neighbour rows, times the weight. -/
def xwRef (x : FVec F S20000x256 .f32) (xf : FVec F S80000x256 .f32) (w : FVec F S256x256 .f32) : FVec F S100000x256 .f32 :=
  Host.dotGeneral dot_S100000x256_S256x256_S100000x256_1_0_0_1_n_n none (concatenate S100000x256 0 [⟨S20000x256, x⟩, ⟨S80000x256, xf⟩] concatenates_S20000x256_S80000x256_S100000x256_d0) w

/-- The source-node row of each edge (row 0 of the edge list, negative entries counted from the end), as a column. -/
def srcIdx (ei : IVec S2x800000 32) : IVec S800000x1 32 :=
  broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 100000#32))) (shapeCast _ (extractStridedSlice S1x800000 ![0, 0] ei slices_S2x800000_S1x800000_0_0) shapeCasts_S1x800000_S800000))

/-- The rows of `xw` at the edges' source nodes. -/
def srcRows (xw : FVec F S100000x256 .f32) (ei : IVec S2x800000 32) : FVec F S800000x256 .f32 :=
  Host.gather gather_S100000x256_S800000x1_S800000x256_1_0_n_n_0_1_1256 xw (srcIdx ei)

/-- The aggregation from gathered source rows: each scaled by its edge's weight, summed into its edge's destination row
    (row 1 of the edge list), plus the bias on every row. -/
def aggOf (g : FVec F S800000x256 .f32) (ei : IVec S2x800000 32) (ew : FVec F S800000 .f32) (bc : FVec F S256 .f32) : FVec F S100000x256 .f32 :=
  addf (Host.scatterAdd scatter_S100000x256_S800000x1_S800000x256_1_0_0_1 (broadcastInDim S100000x256 ![] bcast_S_S100000x256 (constant S_ .f32 0x00000000#32)) (broadcastInDim S800000x1 ![0] bcast_S800000_S800000x1_0 (shapeCast _ (extractStridedSlice S1x800000 ![1, 0] ei slices_S2x800000_S1x800000_1_0) shapeCasts_S1x800000_S800000)) (mulf g (broadcastInDim S800000x256 ![0, 1] bcast_S800000x1_S800000x256_0_1 (broadcastInDim S800000x1 ![0] bcast_S800000_S800000x1_0 ew)))) (broadcastInDim S100000x256 ![0, 1] bcast_S1x256_S100000x256_0_1 (broadcastInDim S1x256 ![1] bcast_S256_S1x256_1 bc))

/-- The edge aggregation of the linear stage's rows. -/
def agg (xw : FVec F S100000x256 .f32) (ei : IVec S2x800000 32) (ew : FVec F S800000 .f32) (bc : FVec F S256 .f32) : FVec F S100000x256 .f32 :=
  aggOf (srcRows xw ei) ei ew bc

/-- The batch nodes' rows (0 … 19999). -/
def headRows (v : FVec F S100000x256 .f32) : FVec F S20000x256 .f32 :=
  extractStridedSlice S20000x256 ![0, 0] v slices_S100000x256_S20000x256_0_0

/-- The neighbour nodes' rows (20000 … 99999). -/
def tailRows (v : FVec F S100000x256 .f32) : FVec F S80000x256 .f32 :=
  extractStridedSlice S80000x256 ![20000, 0] v slices_S100000x256_S80000x256_20000_0

/-- The reference's output transform: (xo·wt + bt) + (x·ws + bs). -/
def outRef (xo x : FVec F S20000x256 .f32) (wt ws : FVec F S256x256 .f32) (bt bs : FVec F S256 .f32) : FVec F S20000x256 .f32 :=
  addf (addf (Host.dotGeneral dot_S20000x256_S256x256_S20000x256_1_0_0_1_n_n none xo wt) (broadcastInDim S20000x256 ![0, 1] bcast_S1x256_S20000x256_0_1 (broadcastInDim S1x256 ![1] bcast_S256_S1x256_1 bt))) (addf (Host.dotGeneral dot_S20000x256_S256x256_S20000x256_1_0_0_1_n_n none x ws) (broadcastInDim S20000x256 ![0, 1] bcast_S1x256_S20000x256_0_1 (broadcastInDim S1x256 ![1] bcast_S256_S1x256_1 bs)))

/-- The reference's scalar term: the sum of a ⊙ g over every entry, times the rate. -/
def infoRef (a g : FVec F S80000x256 .f32) (wr : FVec F S1 .f32) : FVec F S_ .f32 :=
  mulf (Host.reduceAdd (mulf a g) (constant S_ .f32 0x00000000#32) reducesTo_S80000x256_S_d0_1 h_S_) (shapeCast _ wr shapeCasts_S1_S_)

end Cert.Shared

end
-- ==== Proof.KChain.lean ====
/-
  The kernel program's buffers read back through its run: what each buffer the three regions and the two results
  depend on holds at each boundary between host stretches and regions, as the host operations' composed terms of what
  was there before. The neighbour codes and the codebook lookup (with their fills) after the first three stretches; the
  feature and gradient rows after the fourth; region 0's output array; the edge aggregation of it and the aggregate's
  neighbour rows after the stretch between regions 0 and 1; region 1's output array; the scalar result, the
  aggregate's batch rows and the summed bias row after the last stretch; region 2's output array. An argument array is
  written by no operation and no region, so at every boundary it holds its launch contents.
-/
import proofs.«431223_j103079215401_2_alg».proof.Proof.RunKernelIdeal
import proofs.«431223_j103079215401_2_alg».proof.Proof.LookupK
import proofs.«431223_j103079215401_2_alg».proof.Proof.KLookup
import proofs.«431223_j103079215401_2_alg».proof.Proof.Shared
import Idealize.ShloMosaic.Lib.StableHlo.Run

set_option maxRecDepth 16384

noncomputable section

namespace Cert.KernelIdeal.Chain

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-! ## Each host stretch from ANY contents `V`: what it leaves in the buffers read later -/

section Stretches

variable (V : Valuation τ sig (Elt F))

/-- The first stretch leaves the codes (with their fill) of the code table and the positions it finds. -/
theorem ops0_v0 :
    StableHlo.after hostOps0 V (Proc.devRef .tc main_v0)
      = Cert.LookupK.codesK (V (Proc.devRef .tc main_arg10)) (V (Proc.devRef .tc main_arg11)) := by
  after_results_simp
  simp only [TRef.ofBuf, TRef.toBuf, cast_eq]
  rfl

/-- The fourth stretch leaves the feature rows of the lookup it finds. -/
theorem ops0_3_v6 :
    StableHlo.after hostOps0_3 V (Proc.devRef .tc main_v6) = Cert.Shared.splitX (V (Proc.devRef .tc main_v3)) := by
  after_results_simp
  rfl

/-- The fourth stretch leaves the gradient rows of the lookup it finds. -/
theorem ops0_3_v9 :
    StableHlo.after hostOps0_3 V (Proc.devRef .tc main_v9) = Cert.Shared.splitG (V (Proc.devRef .tc main_v3)) := by
  after_results_simp
  rfl

/-- The stretch between regions 0 and 1 leaves the aggregate: region 0's rows at the edges' sources, widened,
    aggregated over the edges. -/
theorem ops1_v31 :
    StableHlo.after hostOps1 V (Proc.devRef .tc main_v31)
      = Cert.Shared.aggOf (extf .f32 (Host.gather gather_S100000x256_S800000x1_S800000x256_1_0_n_n_0_1_1256 (V (Proc.devRef .tc main_v10)) (Cert.Shared.srcIdx (V (Proc.devRef .tc main_arg12)))) bitsLt_bf16_f32)
          (V (Proc.devRef .tc main_arg12)) (V (Proc.devRef .tc main_arg1)) (V (Proc.devRef .tc main_arg4)) := by
  after_results_simp
  rfl

/-- … and the aggregate's neighbour rows. -/
theorem ops1_v32 :
    StableHlo.after hostOps1 V (Proc.devRef .tc main_v32)
      = Cert.Shared.tailRows (StableHlo.after hostOps1 V (Proc.devRef .tc main_v31)) := by
  after_results_simp
  rfl

/-- The last stretch leaves the scalar result: the partial sums reduced, times the rate. -/
theorem ops2_v36 :
    StableHlo.after hostOps2 V (Proc.devRef .tc main_v36)
      = mulf (Host.reduceAdd (V (Proc.devRef .tc main_v33)) (constant S_ .f32 0x00000000#32) reducesTo_S20x1x128_S_d0_1_2 h_S_) (shapeCast _ (V (Proc.devRef .tc main_arg9)) shapeCasts_S1_S_) := by
  after_results_simp
  rfl

/-- … the aggregate's batch rows … -/
theorem ops2_v37 :
    StableHlo.after hostOps2 V (Proc.devRef .tc main_v37) = Cert.Shared.headRows (V (Proc.devRef .tc main_v31)) := by
  after_results_simp
  rfl

/-- … and the two bias vectors added, as a row. -/
theorem ops2_v39 :
    StableHlo.after hostOps2 V (Proc.devRef .tc main_v39)
      = shapeCast _ (addf (V (Proc.devRef .tc main_arg6)) (V (Proc.devRef .tc main_arg8))) shapeCasts_S256_S1x256 := by
  after_results_simp
  rfl

end Stretches

/-! ## The run's boundaries: each buffer's contents in terms of the launch memory `m` and the regions' output arrays -/

section Levels

variable (m : (ℓ : Loc nD τ sig) → Buf (Elt F) ℓ) (ρ : Dev nD → PrngReg)

/-! ### The argument arrays hold their launch contents at every boundary where they are read -/

theorem main_arg2_W1 (c : Dev nD) : W1 m ρ c (Proc.devRef .tc main_arg2) = m ((c : Thread nD τ).loc main_arg2) := by
  show StableHlo.after hostOps0 (W0 m ρ c) _ = _
  after_results_simp

theorem main_arg0_W4 (c : Dev nD) : W4 m ρ c (Proc.devRef .tc main_arg0) = m ((c : Thread nD τ).loc main_arg0) := by
  show StableHlo.after hostOps0_3 (StableHlo.after hostOps0_2 (StableHlo.after hostOps0_1 (StableHlo.after hostOps0 (W0 m ρ c)))) _ = _
  after_results_simp

theorem main_arg3_W4 (c : Dev nD) : W4 m ρ c (Proc.devRef .tc main_arg3) = m ((c : Thread nD τ).loc main_arg3) := by
  show StableHlo.after hostOps0_3 (StableHlo.after hostOps0_2 (StableHlo.after hostOps0_1 (StableHlo.after hostOps0 (W0 m ρ c)))) _ = _
  after_results_simp

theorem main_arg12_W4 (c : Dev nD) : W4 m ρ c (Proc.devRef .tc main_arg12) = m ((c : Thread nD τ).loc main_arg12) := by
  show StableHlo.after hostOps0_3 (StableHlo.after hostOps0_2 (StableHlo.after hostOps0_1 (StableHlo.after hostOps0 (W0 m ρ c)))) _ = _
  after_results_simp

theorem main_arg1_W4 (c : Dev nD) : W4 m ρ c (Proc.devRef .tc main_arg1) = m ((c : Thread nD τ).loc main_arg1) := by
  show StableHlo.after hostOps0_3 (StableHlo.after hostOps0_2 (StableHlo.after hostOps0_1 (StableHlo.after hostOps0 (W0 m ρ c)))) _ = _
  after_results_simp

theorem main_arg4_W4 (c : Dev nD) : W4 m ρ c (Proc.devRef .tc main_arg4) = m ((c : Thread nD τ).loc main_arg4) := by
  show StableHlo.after hostOps0_3 (StableHlo.after hostOps0_2 (StableHlo.after hostOps0_1 (StableHlo.after hostOps0 (W0 m ρ c)))) _ = _
  after_results_simp

theorem main_arg9_W4 (c : Dev nD) : W4 m ρ c (Proc.devRef .tc main_arg9) = m ((c : Thread nD τ).loc main_arg9) := by
  show StableHlo.after hostOps0_3 (StableHlo.after hostOps0_2 (StableHlo.after hostOps0_1 (StableHlo.after hostOps0 (W0 m ρ c)))) _ = _
  after_results_simp

theorem main_arg6_W4 (c : Dev nD) : W4 m ρ c (Proc.devRef .tc main_arg6) = m ((c : Thread nD τ).loc main_arg6) := by
  show StableHlo.after hostOps0_3 (StableHlo.after hostOps0_2 (StableHlo.after hostOps0_1 (StableHlo.after hostOps0 (W0 m ρ c)))) _ = _
  after_results_simp

theorem main_arg8_W4 (c : Dev nD) : W4 m ρ c (Proc.devRef .tc main_arg8) = m ((c : Thread nD τ).loc main_arg8) := by
  show StableHlo.after hostOps0_3 (StableHlo.after hostOps0_2 (StableHlo.after hostOps0_1 (StableHlo.after hostOps0 (W0 m ρ c)))) _ = _
  after_results_simp

theorem main_arg5_W4 (c : Dev nD) : W4 m ρ c (Proc.devRef .tc main_arg5) = m ((c : Thread nD τ).loc main_arg5) := by
  show StableHlo.after hostOps0_3 (StableHlo.after hostOps0_2 (StableHlo.after hostOps0_1 (StableHlo.after hostOps0 (W0 m ρ c)))) _ = _
  after_results_simp

theorem main_arg7_W4 (c : Dev nD) : W4 m ρ c (Proc.devRef .tc main_arg7) = m ((c : Thread nD τ).loc main_arg7) := by
  show StableHlo.after hostOps0_3 (StableHlo.after hostOps0_2 (StableHlo.after hostOps0_1 (StableHlo.after hostOps0 (W0 m ρ c)))) _ = _
  after_results_simp

theorem main_arg0_W5 (c : Dev nD) : W5 m ρ c (Proc.devRef .tc main_arg0) = m ((c : Thread nD τ).loc main_arg0) :=
  ((W5_arr m ρ c 0).trans (((dat0 (V4 m ρ) c).arrAt_in 0 rfl _).trans (A_eq0 (V4 m ρ) c 0))).trans (main_arg0_W4 m ρ c)

theorem main_arg12_W5 (c : Dev nD) : W5 m ρ c (Proc.devRef .tc main_arg12) = m ((c : Thread nD τ).loc main_arg12) :=
  (W5_of_ne m ρ c main_arg12 (by decide)).trans (main_arg12_W4 m ρ c)

theorem main_arg1_W5 (c : Dev nD) : W5 m ρ c (Proc.devRef .tc main_arg1) = m ((c : Thread nD τ).loc main_arg1) :=
  (W5_of_ne m ρ c main_arg1 (by decide)).trans (main_arg1_W4 m ρ c)

theorem main_arg4_W5 (c : Dev nD) : W5 m ρ c (Proc.devRef .tc main_arg4) = m ((c : Thread nD τ).loc main_arg4) :=
  (W5_of_ne m ρ c main_arg4 (by decide)).trans (main_arg4_W4 m ρ c)

theorem main_arg9_W5 (c : Dev nD) : W5 m ρ c (Proc.devRef .tc main_arg9) = m ((c : Thread nD τ).loc main_arg9) :=
  (W5_of_ne m ρ c main_arg9 (by decide)).trans (main_arg9_W4 m ρ c)

theorem main_arg6_W5 (c : Dev nD) : W5 m ρ c (Proc.devRef .tc main_arg6) = m ((c : Thread nD τ).loc main_arg6) :=
  (W5_of_ne m ρ c main_arg6 (by decide)).trans (main_arg6_W4 m ρ c)

theorem main_arg8_W5 (c : Dev nD) : W5 m ρ c (Proc.devRef .tc main_arg8) = m ((c : Thread nD τ).loc main_arg8) :=
  (W5_of_ne m ρ c main_arg8 (by decide)).trans (main_arg8_W4 m ρ c)

theorem main_arg5_W5 (c : Dev nD) : W5 m ρ c (Proc.devRef .tc main_arg5) = m ((c : Thread nD τ).loc main_arg5) :=
  (W5_of_ne m ρ c main_arg5 (by decide)).trans (main_arg5_W4 m ρ c)

theorem main_arg7_W5 (c : Dev nD) : W5 m ρ c (Proc.devRef .tc main_arg7) = m ((c : Thread nD τ).loc main_arg7) :=
  (W5_of_ne m ρ c main_arg7 (by decide)).trans (main_arg7_W4 m ρ c)

theorem main_arg9_W6 (c : Dev nD) : W6 m ρ c (Proc.devRef .tc main_arg9) = m ((c : Thread nD τ).loc main_arg9) := by
  show StableHlo.after hostOps1 (W5 m ρ c) _ = _
  after_results_simp
  exact main_arg9_W5 m ρ c

theorem main_arg9_W7 (c : Dev nD) : W7 m ρ c (Proc.devRef .tc main_arg9) = m ((c : Thread nD τ).loc main_arg9) :=
  (W7_of_ne m ρ c main_arg9 (by decide)).trans (main_arg9_W6 m ρ c)

theorem main_arg6_W6 (c : Dev nD) : W6 m ρ c (Proc.devRef .tc main_arg6) = m ((c : Thread nD τ).loc main_arg6) := by
  show StableHlo.after hostOps1 (W5 m ρ c) _ = _
  after_results_simp
  exact main_arg6_W5 m ρ c

theorem main_arg6_W7 (c : Dev nD) : W7 m ρ c (Proc.devRef .tc main_arg6) = m ((c : Thread nD τ).loc main_arg6) :=
  (W7_of_ne m ρ c main_arg6 (by decide)).trans (main_arg6_W6 m ρ c)

theorem main_arg8_W6 (c : Dev nD) : W6 m ρ c (Proc.devRef .tc main_arg8) = m ((c : Thread nD τ).loc main_arg8) := by
  show StableHlo.after hostOps1 (W5 m ρ c) _ = _
  after_results_simp
  exact main_arg8_W5 m ρ c

theorem main_arg8_W7 (c : Dev nD) : W7 m ρ c (Proc.devRef .tc main_arg8) = m ((c : Thread nD τ).loc main_arg8) :=
  (W7_of_ne m ρ c main_arg8 (by decide)).trans (main_arg8_W6 m ρ c)

theorem main_arg0_W6 (c : Dev nD) : W6 m ρ c (Proc.devRef .tc main_arg0) = m ((c : Thread nD τ).loc main_arg0) := by
  show StableHlo.after hostOps1 (W5 m ρ c) _ = _
  after_results_simp
  exact main_arg0_W5 m ρ c

theorem main_arg0_W7 (c : Dev nD) : W7 m ρ c (Proc.devRef .tc main_arg0) = m ((c : Thread nD τ).loc main_arg0) :=
  (W7_of_ne m ρ c main_arg0 (by decide)).trans (main_arg0_W6 m ρ c)

theorem main_arg5_W6 (c : Dev nD) : W6 m ρ c (Proc.devRef .tc main_arg5) = m ((c : Thread nD τ).loc main_arg5) := by
  show StableHlo.after hostOps1 (W5 m ρ c) _ = _
  after_results_simp
  exact main_arg5_W5 m ρ c

theorem main_arg5_W7 (c : Dev nD) : W7 m ρ c (Proc.devRef .tc main_arg5) = m ((c : Thread nD τ).loc main_arg5) :=
  (W7_of_ne m ρ c main_arg5 (by decide)).trans (main_arg5_W6 m ρ c)

theorem main_arg7_W6 (c : Dev nD) : W6 m ρ c (Proc.devRef .tc main_arg7) = m ((c : Thread nD τ).loc main_arg7) := by
  show StableHlo.after hostOps1 (W5 m ρ c) _ = _
  after_results_simp
  exact main_arg7_W5 m ρ c

theorem main_arg7_W7 (c : Dev nD) : W7 m ρ c (Proc.devRef .tc main_arg7) = m ((c : Thread nD τ).loc main_arg7) :=
  (W7_of_ne m ρ c main_arg7 (by decide)).trans (main_arg7_W6 m ρ c)

theorem main_arg0_W8 (c : Dev nD) : W8 m ρ c (Proc.devRef .tc main_arg0) = m ((c : Thread nD τ).loc main_arg0) := by
  show StableHlo.after hostOps2 (W7 m ρ c) _ = _
  after_results_simp
  exact main_arg0_W7 m ρ c

theorem main_arg5_W8 (c : Dev nD) : W8 m ρ c (Proc.devRef .tc main_arg5) = m ((c : Thread nD τ).loc main_arg5) := by
  show StableHlo.after hostOps2 (W7 m ρ c) _ = _
  after_results_simp
  exact main_arg5_W7 m ρ c

theorem main_arg7_W8 (c : Dev nD) : W8 m ρ c (Proc.devRef .tc main_arg7) = m ((c : Thread nD τ).loc main_arg7) := by
  show StableHlo.after hostOps2 (W7 m ρ c) _ = _
  after_results_simp
  exact main_arg7_W7 m ρ c

/-! ### The computed buffers -/

/-- The codes (with their fill) after the first stretch. -/
theorem v0_W1 (c : Dev nD) :
    W1 m ρ c (Proc.devRef .tc main_v0) = Cert.LookupK.codesK (m ((c : Thread nD τ).loc main_arg10)) (m ((c : Thread nD τ).loc main_arg11)) :=
  ops0_v0 (W0 m ρ c)

/-- The lookup (with its fill) after the third stretch. -/
theorem v3_W3 (c : Dev nD) :
    W3 m ρ c (Proc.devRef .tc main_v3) = Cert.LookupK.lookupK (m ((c : Thread nD τ).loc main_arg2)) (Cert.LookupK.codesK (m ((c : Thread nD τ).loc main_arg10)) (m ((c : Thread nD τ).loc main_arg11))) :=
  (ops0_2_v3 (W1 m ρ c)).trans (by rw [main_arg2_W1 m ρ c, v0_W1 m ρ c])

/-- The neighbours' feature rows at region 0's entry. -/
theorem v6_W4 (c : Dev nD) :
    W4 m ρ c (Proc.devRef .tc main_v6) = Cert.Shared.splitX (Cert.LookupK.lookupK (m ((c : Thread nD τ).loc main_arg2)) (Cert.LookupK.codesK (m ((c : Thread nD τ).loc main_arg10)) (m ((c : Thread nD τ).loc main_arg11)))) :=
  (ops0_3_v6 (W3 m ρ c)).trans (by rw [v3_W3 m ρ c])

/-- The neighbours' gradient rows at region 0's entry. -/
theorem v9_W4 (c : Dev nD) :
    W4 m ρ c (Proc.devRef .tc main_v9) = Cert.Shared.splitG (Cert.LookupK.lookupK (m ((c : Thread nD τ).loc main_arg2)) (Cert.LookupK.codesK (m ((c : Thread nD τ).loc main_arg10)) (m ((c : Thread nD τ).loc main_arg11)))) :=
  (ops0_3_v9 (W3 m ρ c)).trans (by rw [v3_W3 m ρ c])

/-- Region 0's output array at its exit. -/
theorem v10_W5 (c : Dev nD) : W5 m ρ c (Proc.devRef .tc main_v10) = (dat0 (V4 m ρ) c).arrAt 3 cfg0.N := W5_arr m ρ c 3

/-- The aggregate at region 1's entry, from region 0's output array. -/
theorem v31_W6 (c : Dev nD) :
    W6 m ρ c (Proc.devRef .tc main_v31)
      = Cert.Shared.aggOf (extf .f32 (Host.gather gather_S100000x256_S800000x1_S800000x256_1_0_n_n_0_1_1256 (W5 m ρ c (Proc.devRef .tc main_v10)) (Cert.Shared.srcIdx (m ((c : Thread nD τ).loc main_arg12)))) bitsLt_bf16_f32)
          (m ((c : Thread nD τ).loc main_arg12)) (m ((c : Thread nD τ).loc main_arg1)) (m ((c : Thread nD τ).loc main_arg4)) :=
  (ops1_v31 (W5 m ρ c)).trans (by rw [main_arg12_W5 m ρ c, main_arg1_W5 m ρ c, main_arg4_W5 m ρ c])

/-- The aggregate's neighbour rows at region 1's entry. -/
theorem v32_W6 (c : Dev nD) : W6 m ρ c (Proc.devRef .tc main_v32) = Cert.Shared.tailRows (W6 m ρ c (Proc.devRef .tc main_v31)) :=
  ops1_v32 (W5 m ρ c)

/-- The gradient rows are still there at region 1's entry. -/
theorem v9_W6 (c : Dev nD) : W6 m ρ c (Proc.devRef .tc main_v9) = W4 m ρ c (Proc.devRef .tc main_v9) :=
  (show StableHlo.after hostOps1 (W5 m ρ c) (Proc.devRef .tc main_v9) = W5 m ρ c (Proc.devRef .tc main_v9) from by after_results_simp).trans
    (W5_of_ne m ρ c main_v9 (by decide))

/-- Region 1's output array at its exit. -/
theorem v33_W7 (c : Dev nD) : W7 m ρ c (Proc.devRef .tc main_v33) = (dat1 (V6 m ρ) c).arrAt 2 cfg1.N := W7_arr m ρ c 2

/-- Region 1 leaves the aggregate alone. -/
theorem v31_W7 (c : Dev nD) : W7 m ρ c (Proc.devRef .tc main_v31) = W6 m ρ c (Proc.devRef .tc main_v31) := W7_of_ne m ρ c main_v31 (by decide)

/-- The scalar result at region 2's entry, from region 1's output array. -/
theorem v36_W8 (c : Dev nD) :
    W8 m ρ c (Proc.devRef .tc main_v36)
      = mulf (Host.reduceAdd (W7 m ρ c (Proc.devRef .tc main_v33)) (constant S_ .f32 0x00000000#32) reducesTo_S20x1x128_S_d0_1_2 h_S_) (shapeCast _ (m ((c : Thread nD τ).loc main_arg9)) shapeCasts_S1_S_) :=
  (ops2_v36 (W7 m ρ c)).trans (by rw [main_arg9_W7 m ρ c])

/-- The aggregate's batch rows at region 2's entry. -/
theorem v37_W8 (c : Dev nD) : W8 m ρ c (Proc.devRef .tc main_v37) = Cert.Shared.headRows (W6 m ρ c (Proc.devRef .tc main_v31)) :=
  (ops2_v37 (W7 m ρ c)).trans (by rw [v31_W7 m ρ c])

/-- The summed bias row at region 2's entry. -/
theorem v39_W8 (c : Dev nD) :
    W8 m ρ c (Proc.devRef .tc main_v39) = shapeCast _ (addf (m ((c : Thread nD τ).loc main_arg6)) (m ((c : Thread nD τ).loc main_arg8))) shapeCasts_S256_S1x256 :=
  (ops2_v39 (W7 m ρ c)).trans (by rw [main_arg6_W7 m ρ c, main_arg8_W7 m ρ c])

/-- Region 2's output array at its exit: the first result. -/
theorem v40_W9 (c : Dev nD) : W9 m ρ c (Proc.devRef .tc main_v40) = (dat2 (V8 m ρ) c).arrAt 5 cfg2.N := W9_arr m ρ c 5

/-- Region 2 leaves the scalar result alone: the second result. -/
theorem v36_W9 (c : Dev nD) : W9 m ρ c (Proc.devRef .tc main_v36) = W8 m ρ c (Proc.devRef .tc main_v36) := W9_of_ne m ρ c main_v36 (by decide)

end Levels

end Cert.KernelIdeal.Chain

end
-- ==== Proof.Spec.lean ====
/-
  The mathematics both programs compute, as functions of arrays of extended reals, index by index.

  The graph layer has three dense pieces. `gemm1`: the [100000, 256] matrix whose first 20000 rows are the batch
  rows `x` and whose last 80000 rows are the quantized neighbour rows `xf`, times `W` — row `r`, column `q` is
  ∑ₖ row(r)ₖ · W[k, q]. `dual`: the output transform plus skip connection, (xo·Wt + bt) + (x·Ws + bs), which the kernel
  computes as (xo·Wt + x·Ws) + (bt + bs) (`dualK`): sums of extended reals commute and associate, so the two agree
  without any finiteness. `partials`: the kernel's per-tile partial sums of the elementwise product a ⊙ b over tiles
  of 4000 rows, each scaled by 2⁻⁷ and written to 128 lanes; summing all 20 · 128 lanes gives back the plain sum of
  a ⊙ b over all 80000 · 256 entries, because 128 copies of t · 2⁻⁷ add up to t for every extended real t.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An [r, c] array of extended reals. -/
abbrev Arr2 (r c : Nat) : Type := (⟨2, ![r, c]⟩ : Shape).Idx → EReal
/-- An [n] array of extended reals. -/
abbrev Arr1 (n : Nat) : Type := (⟨1, ![n]⟩ : Shape).Idx → EReal

/-- The rows of `x` (rows 0 … 19999) followed by the rows of `xf` (rows 20000 … 99999). -/
def rowsCat (x : Arr2 20000 256) (xf : Arr2 80000 256) : Arr2 100000 256 := fun i =>
  if h : (i 0).val < 20000 then x (ix2 (n0 := 20000) (n1 := 256) ⟨(i 0).val, h⟩ ⟨(i 1).val, idx2_lt1 i⟩)
  else xf (ix2 (n0 := 80000) (n1 := 256) ⟨(i 0).val - 20000, by have := idx2_lt0 i; omega⟩ ⟨(i 1).val, idx2_lt1 i⟩)

/-- The product of an [R, 256] array with a [256, 256] matrix: entry (r, q) is ∑ₖ a[r, k] · w[k, q]. -/
def mm {R : Nat} (a : Arr2 R 256) (w : Arr2 256 256) : Arr2 R 256 := fun i =>
  ∑ k : Fin 256, a (ix2 (n0 := R) (n1 := 256) ⟨(i 0).val, idx2_lt0 i⟩ k) * w (ix2 (n0 := 256) (n1 := 256) k ⟨(i 1).val, idx2_lt1 i⟩)

/-- The convolution's linear stage: the stacked rows times `w`. -/
def gemm1 (x : Arr2 20000 256) (xf : Arr2 80000 256) (w : Arr2 256 256) : Arr2 100000 256 := mm (rowsCat x xf) w

/-- The output transform as the kernel groups it: (xo·wt + x·ws) + bias, the bias a [1, 256] row. -/
def dualK (xo x : Arr2 20000 256) (wt ws : Arr2 256 256) (bias : Arr2 1 256) : Arr2 20000 256 := fun i =>
  (mm xo wt i + mm x ws i) + bias (ix2 (n0 := 1) (n1 := 256) 0 ⟨(i 1).val, idx2_lt1 i⟩)

/-- The output transform as the reference groups it: (xo·wt + bt) + (x·ws + bs). -/
def dual (xo x : Arr2 20000 256) (wt ws : Arr2 256 256) (bt bs : Arr1 256) : Arr2 20000 256 := fun i =>
  (mm xo wt i + bt (ix1 (n := 256) ⟨(i 1).val, idx2_lt1 i⟩)) + (mm x ws i + bs (ix1 (n := 256) ⟨(i 1).val, idx2_lt1 i⟩))

/-- The scale 2⁻⁷ = 1/128 the kernel multiplies each tile's sum by (the f32 word 0x3C000000). -/
def c128 : EReal := Ideal.ofBits .f32 0x3C000000#32

/-- Row `t · 4000 + r` of an [80000, 256] array, for a tile `t < 20` and a row `r < 4000` inside it. -/
def tileRow (t : Fin 20) (r : Fin 4000) : Fin 80000 := ⟨t.val * 4000 + r.val, by have := t.isLt; have := r.isLt; omega⟩

/-- Tile `j 0` (4000 rows) of the elementwise product a ⊙ b summed, times 2⁻⁷, the same in each of the 128 lanes. -/
def partials (a b : Arr2 80000 256) : (⟨3, ![20, 1, 128]⟩ : Shape).Idx → EReal := fun j =>
  (∑ r : Fin 4000, ∑ q : Fin 256,
      a (ix2 (n0 := 80000) (n1 := 256) (tileRow ⟨(j 0).val, (j 0).isLt⟩ r) q) * b (ix2 (n0 := 80000) (n1 := 256) (tileRow ⟨(j 0).val, (j 0).isLt⟩ r) q))
    * c128

/-- The scalar term: the sum of a ⊙ b over every entry, times the rate (a one-entry array). -/
def info (a b : Arr2 80000 256) (wr : Arr1 1) : (⟨0, ![]⟩ : Shape).Idx → EReal := fun _ =>
  (∑ i : (⟨2, ![80000, 256]⟩ : Shape).Idx, a i * b i) * wr (ix1 (n := 1) 0)

/-- The scale is the real number 1/128. -/
theorem c128_eq : c128 = ((1 / 128 : ℝ) : EReal) := by
  unfold c128
  simp [Ideal.ofBits, Ideal.ieee, -EReal.coe_mul]; norm_num

/-- 128 copies of s · 2⁻⁷ add up to s, for every extended real s: a multiple is a product, products of extended
    reals commute and associate, and 128 · (1/128) = 1. -/
theorem nsmul_mul_c128 (s : EReal) : 128 • (s * c128) = s := by
  have h1 : ((128 : ℕ) : EReal) * ((1 / 128 : ℝ) : EReal) = 1 := by
    rw [show ((128 : ℕ) : EReal) = ((128 : ℝ) : EReal) by norm_cast, ← EReal.coe_mul]
    norm_num
  rw [EReal.nsmul_eq_mul, c128_eq, mul_comm s, ← mul_assoc, h1, one_mul]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- The 80000 rows are the 20 tiles of 4000 rows: row R is row R mod 4000 of tile R div 4000. -/
def tileEquiv : Fin 20 × Fin 4000 ≃ Fin 80000 where
  toFun p := tileRow p.1 p.2
  invFun R := (⟨R.val / 4000, by have := R.isLt; omega⟩, ⟨R.val % 4000, by omega⟩)
  left_inv p := by
    rcases p with ⟨t, r⟩
    have := t.isLt; have := r.isLt
    apply Prod.ext <;> apply Fin.ext <;> simp only [tileRow] <;> omega
  right_inv R := by
    apply Fin.ext; simp only [tileRow]; omega

/-- The sum of one tile of a ⊙ b. -/
def tileSum (a b : Arr2 80000 256) (t : Fin 20) : EReal :=
  ∑ r : Fin 4000, ∑ q : Fin 256,
    a (ix2 (n0 := 80000) (n1 := 256) (tileRow t r) q) * b (ix2 (n0 := 80000) (n1 := 256) (tileRow t r) q)

/-- A lane of the partial sums holds its tile's sum times the scale, whatever the lane. -/
theorem partials_ix3 (a b : Arr2 80000 256) (t : Fin 20) (z : Fin 1) (l : Fin 128) :
    partials a b (ix3 t z l) = tileSum a b t * c128 := rfl

/-- The two groupings of the output transform agree when the bias row is bt + bs: addition of extended reals is
    commutative and associative. -/
theorem dualK_eq_dual (xo x : Arr2 20000 256) (wt ws : Arr2 256 256) (bt bs : Arr1 256) (bias : Arr2 1 256)
    (hb : ∀ q : Fin 256, bias (ix2 (n0 := 1) (n1 := 256) 0 q) = bt (ix1 q) + bs (ix1 q)) :
    dualK xo x wt ws bias = dual xo x wt ws bt bs := by
  funext i
  unfold dualK dual
  rw [hb ⟨(i 1).val, idx2_lt1 i⟩]
  exact add_add_add_comm _ _ _ _

/-- All 20 · 128 lanes of the partial sums add up to the sum of a ⊙ b over every entry. -/
theorem sum_partials (a b : Arr2 80000 256) :
    ∑ j : (⟨3, ![20, 1, 128]⟩ : Shape).Idx, partials a b j = ∑ i : (⟨2, ![80000, 256]⟩ : Shape).Idx, a i * b i := by
  rw [sum_idx3, sum_idx2]
  simp only [partials_ix3, Finset.sum_const, Finset.card_univ, Fintype.card_fin, one_smul, nsmul_mul_c128]
  rw [← Equiv.sum_comp tileEquiv, Fintype.sum_prod_type]
  rfl

end Cert.Spec

end
-- ==== Proof.RegionGemm.lean ====
/-
  Region 0's output array: the linear stage. Grid point t (of 25) writes rows 4000·t … 4000·t + 3999: for t < 5 the
  batch rows' block t of `x`, for t ≥ 5 block t − 5 of the neighbour rows, times the weight matrix.
-/
import proofs.«431223_j103079215401_2_alg».proof.Proof.FrameKernelIdeal
import proofs.«431223_j103079215401_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx Idealize.SL.Sem

/-! The auxiliary lemmas of this module, in a namespace of their own. -/
namespace Gemm

/-- The offset vector of a store that starts at the block's origin. -/
theorem zero_off : (![0, 0] : Fin 2 → Nat) = fun _ => 0 := funext fun a => by fin_cases a <;> rfl

/-! ## The product's operand indices: entry (p, q) of the result reads row p of the left operand and column q of
    the right one, the summation index k on the left operand's axis 1 and the right operand's axis 0. -/

theorem dot_lhs_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem dot_lhs_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem dot_rhs_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem dot_rhs_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- A block of 4000 rows times the weight, into a zero accumulator, entry by entry: ∑ₖ a[p, k] · w[k, q]. -/
theorem mm_block (a : FVec Ideal S4000x256 .bf16) (w : FVec Ideal S256x256 .bf16) (p : Fin 4000) (q : Fin 256) :
    matmul dot_S4000x256_S256x256_S4000x256_1_0_0_1_n_n none a w (constant (F := Ideal) S4000x256 .f32 0x00000000#32) (ix2 p q)
      = ∑ k : Fin 256, a (ix2 p k) * w (ix2 k q) := by
  refine (Ideal.matmul_constant_zero_apply dot_S4000x256_S256x256_S4000x256_1_0_0_1_n_n none a w (ix2 p q)).trans ?_
  rw [← Equiv.sum_comp (ValueIdx.contrEquiv1 dot_S4000x256_S256x256_S4000x256_1_0_0_1_n_n 256 rfl rfl).symm]
  refine Finset.sum_congr rfl fun k _ => ?_
  have hk := ValueIdx.contrEquiv1_symm_val dot_S4000x256_S256x256_S4000x256_1_0_0_1_n_n 256 rfl rfl k
  have el : dot_S4000x256_S256x256_S4000x256_1_0_0_1_n_n.lhsIdx (ix2 p q) ((ValueIdx.contrEquiv1 dot_S4000x256_S256x256_S4000x256_1_0_0_1_n_n 256 rfl rfl).symm k) = ix2 p k := funext fun a => Fin.ext (by
    match a with
    | ⟨0, _⟩ => exact dot_lhs_0 _ _
    | ⟨1, _⟩ => exact (dot_lhs_1 _ _).trans hk)
  have er : dot_S4000x256_S256x256_S4000x256_1_0_0_1_n_n.rhsIdx (ix2 p q) ((ValueIdx.contrEquiv1 dot_S4000x256_S256x256_S4000x256_1_0_0_1_n_n 256 rfl rfl).symm k) = ix2 k q := funext fun a => Fin.ext (by
    match a with
    | ⟨0, _⟩ => exact (dot_rhs_0 _ _).trans hk
    | ⟨1, _⟩ => exact dot_rhs_1 _ _)
  rw [el, er]

/-! ## The body's arithmetic at an entry. A change of float format is the identity on extended reals, so the
    stored value is the selected operand's rows times the weight. -/

/-- The stored value at an entry when the grid coordinate is below 5: the first operand's row times the weight. -/
theorem pay_lo (i : grid0.Coords) (h : Scalar.cmpi .slt (BitVec.ofNat 32 (i 0).val) 5#32 = 1#1)
    (v1 v2 : FVec Ideal S4000x256 .f32) (v6 : FVec Ideal S256x256 .f32) (p : Fin 4000) (q : Fin 256) :
    k0_pay1 (F := Ideal) i v1 v2 v6 (ix2 p q) = ∑ k : Fin 256, v1 (ix2 p k) * v6 (ix2 k q) := by
  unfold k0_pay1
  refine (truncf_apply (φ := .f32) (ψ := .bf16) _ bitsLt_bf16_f32 (ix2 p q)).trans ?_
  refine (mm_block _ _ p q).trans ?_
  rw [h, select_one]
  rfl

/-- The stored value at an entry when the grid coordinate is 5 or more: the second operand's row times the weight. -/
theorem pay_hi (i : grid0.Coords) (h : ¬ Scalar.cmpi .slt (BitVec.ofNat 32 (i 0).val) 5#32 = 1#1)
    (v1 v2 : FVec Ideal S4000x256 .f32) (v6 : FVec Ideal S256x256 .f32) (p : Fin 4000) (q : Fin 256) :
    k0_pay1 (F := Ideal) i v1 v2 v6 (ix2 p q) = ∑ k : Fin 256, v2 (ix2 p k) * v6 (ix2 k q) := by
  unfold k0_pay1
  refine (truncf_apply (φ := .f32) (ψ := .bf16) _ bitsLt_bf16_f32 (ix2 p q)).trans ?_
  refine (mm_block _ _ p q).trans ?_
  rw [eq_zero_of_ne_one h, select_zero, shapeCast_self]
  rfl

/-- What the body leaves in the output's buffer, at an entry, when the grid coordinate is below 5: the body's one
    store covers the buffer and its loads read the whole input buffers. -/
theorem out_lo (i : grid0.Coords) (h : Scalar.cmpi .slt (BitVec.ofNat 32 (i 0).val) 5#32 = 1#1)
    (x0 x1 : Vec Ideal S4000x256 .f32) (x2 : Vec Ideal S256x256 .f32) (p : Fin 4000) (q : Fin 256) :
    out0_3 (F := Ideal) i x0 x1 x2 (ix2 p q) = ∑ k : Fin 256, x0 (ix2 p k) * x2 (ix2 k q) := by
  unfold out0_3
  rw [View.canon_unit_zero zero_off]
  simp only [View.ld_unit_zero (S := S4000x256) zero_off, View.ld_unit_zero (S := S256x256) zero_off]
  exact pay_lo i h x0 x1 x2 p q

/-- What the body leaves in the output's buffer, at an entry, when the grid coordinate is 5 or more. -/
theorem out_hi (i : grid0.Coords) (h : ¬ Scalar.cmpi .slt (BitVec.ofNat 32 (i 0).val) 5#32 = 1#1)
    (x0 x1 : Vec Ideal S4000x256 .f32) (x2 : Vec Ideal S256x256 .f32) (p : Fin 4000) (q : Fin 256) :
    out0_3 (F := Ideal) i x0 x1 x2 (ix2 p q) = ∑ k : Fin 256, x1 (ix2 p k) * x2 (ix2 k q) := by
  unfold out0_3
  rw [View.canon_unit_zero zero_off]
  simp only [View.ld_unit_zero (S := S4000x256) zero_off, View.ld_unit_zero (S := S256x256) zero_off]
  exact pay_hi i h x0 x1 x2 p q

/-! ## The block indices -/

/-- The index maps over the 25 grid points: the output's block index is the point; the batch rows' is the point
    capped at 4, the neighbour rows' is the point less 5 (or 0), the weight's block is the whole matrix; and the
    body's comparison of the grid coordinate with 5 is the comparison of the point with 5. -/
theorem block_indices : ∀ t : Fin cfg0.N,
    win0_3.index t (0 : Fin 2) = t.val ∧ win0_3.index t (1 : Fin 2) = 0
    ∧ win0_0.index t (0 : Fin 2) = min t.val 4 ∧ win0_0.index t (1 : Fin 2) = 0
    ∧ win0_1.index t (0 : Fin 2) = t.val - 5 ∧ win0_1.index t (1 : Fin 2) = 0
    ∧ win0_2.index t (0 : Fin 2) = 0 ∧ win0_2.index t (1 : Fin 2) = 0
    ∧ (Scalar.cmpi .slt (BitVec.ofNat 32 ((grid0.coords t) 0).val) 5#32 = 1#1 ↔ t.val < 5) :=
  (by decide +kernel : ∀ t : Fin grid0.N, _)

/-! ## The specification at a row of either part of the stacked matrix -/

/-- At a row r < 20000 the stacked matrix is the batch rows: the entry is ∑ₖ x[r, k] · w[k, q]. -/
theorem gemm1_lo (x : Cert.Spec.Arr2 20000 256) (xf : Cert.Spec.Arr2 80000 256) (w : Cert.Spec.Arr2 256 256)
    (i : (⟨2, ![100000, 256]⟩ : Shape).Idx) (r : Fin 20000) (q : Fin 256) (h0 : (i 0).val = r.val) (h1 : (i 1).val = q.val) :
    Cert.Spec.gemm1 x xf w i = ∑ k : Fin 256, x (ix2 r k) * w (ix2 k q) := by
  unfold Cert.Spec.gemm1 Cert.Spec.mm
  refine Finset.sum_congr rfl fun k _ => ?_
  have e1 : (⟨(i 1).val, idx2_lt1 i⟩ : Fin 256) = q := Fin.ext h1
  rw [e1]
  congr 1
  unfold Cert.Spec.rowsCat
  have hlt : ((ix2 (n0 := 100000) (n1 := 256) ⟨(i 0).val, idx2_lt0 i⟩ k) 0).val < 20000 := by
    show (i 0).val < 20000
    rw [h0]; exact r.isLt
  rw [dif_pos hlt]
  refine congrArg x ?_
  funext a
  match a with
  | ⟨0, _⟩ => exact Fin.ext h0
  | ⟨1, _⟩ => rfl

/-- At a row 20000 + r the stacked matrix is the neighbour rows: the entry is ∑ₖ xf[r, k] · w[k, q]. -/
theorem gemm1_hi (x : Cert.Spec.Arr2 20000 256) (xf : Cert.Spec.Arr2 80000 256) (w : Cert.Spec.Arr2 256 256)
    (i : (⟨2, ![100000, 256]⟩ : Shape).Idx) (r : Fin 80000) (q : Fin 256) (h0 : (i 0).val = 20000 + r.val) (h1 : (i 1).val = q.val) :
    Cert.Spec.gemm1 x xf w i = ∑ k : Fin 256, xf (ix2 r k) * w (ix2 k q) := by
  unfold Cert.Spec.gemm1 Cert.Spec.mm
  refine Finset.sum_congr rfl fun k _ => ?_
  have e1 : (⟨(i 1).val, idx2_lt1 i⟩ : Fin 256) = q := Fin.ext h1
  rw [e1]
  congr 1
  unfold Cert.Spec.rowsCat
  have hlt : ¬ ((ix2 (n0 := 100000) (n1 := 256) ⟨(i 0).val, idx2_lt0 i⟩ k) 0).val < 20000 := by
    show ¬ (i 0).val < 20000
    rw [h0]; omega
  rw [dif_neg hlt]
  refine congrArg xf ?_
  funext a
  match a with
  | ⟨0, _⟩ => exact Fin.ext (by show (i 0).val - 20000 = r.val; omega)
  | ⟨1, _⟩ => rfl

/-! ## The input blocks as rows of their arrays, and the block each point writes. An entry of a block sits in
    its array, on each axis, at the block index times the block's size plus its coordinate inside the block. -/

section
variable (V : (c : Dev nD) → (b : Ref sig .tc) → Buf (Elt Ideal) ((c : Thread nD τ).loc b))

/-- An entry of the batch rows' block at a point below 5: row 4000·t + p of the batch rows. -/
theorem rd_x (c : Dev nD) (t : Fin cfg0.N) (ht : t.val < 5) (p : Fin 4000) (k : Fin 256) :
    (iblk0 (F := Ideal) V c 0 t : FVec Ideal S4000x256 .f32) (ix2 p k)
      = (V c main_arg0 : Cert.Spec.Arr2 20000 256) (ix2 ⟨t.val * 4000 + p.val, by have := p.isLt; omega⟩ k) := by
  obtain ⟨-, -, e0, e1, -⟩ := block_indices t
  show (V c main_arg0 : Cert.Spec.Arr2 20000 256) (((cfg0.win 0).blk t).view.emb (ix2 p k)) = _
  refine congrArg _ ?_
  funext a; apply Fin.ext
  match a with
  | ⟨0, _⟩ => show win0_0.index t (0 : Fin 2) * 4000 + 1 * p.val = t.val * 4000 + p.val; rw [e0]; omega
  | ⟨1, _⟩ => show win0_0.index t (1 : Fin 2) * 256 + 1 * k.val = k.val; rw [e1]; omega

/-- An entry of the neighbour rows' block at a point from 5 on: row 4000·(t − 5) + p of the neighbour rows. -/
theorem rd_xf (c : Dev nD) (t : Fin cfg0.N) (ht : 5 ≤ t.val) (p : Fin 4000) (k : Fin 256) :
    (iblk0 (F := Ideal) V c 1 t : FVec Ideal S4000x256 .f32) (ix2 p k)
      = (V c main_v6 : Cert.Spec.Arr2 80000 256) (ix2 ⟨(t.val - 5) * 4000 + p.val, by have := p.isLt; have := t.isLt; have hN : cfg0.N = 25 := rfl; omega⟩ k) := by
  obtain ⟨-, -, -, -, e0, e1, -⟩ := block_indices t
  show (V c main_v6 : Cert.Spec.Arr2 80000 256) (((cfg0.win 1).blk t).view.emb (ix2 p k)) = _
  refine congrArg _ ?_
  funext a; apply Fin.ext
  match a with
  | ⟨0, _⟩ => show win0_1.index t (0 : Fin 2) * 4000 + 1 * p.val = (t.val - 5) * 4000 + p.val; rw [e0]; omega
  | ⟨1, _⟩ => show win0_1.index t (1 : Fin 2) * 256 + 1 * k.val = k.val; rw [e1]; omega

/-- An entry of the weight's block: the weight's entry. -/
theorem rd_w (c : Dev nD) (t : Fin cfg0.N) (k q : Fin 256) :
    (iblk0 (F := Ideal) V c 2 t : FVec Ideal S256x256 .f32) (ix2 k q)
      = (V c main_arg3 : Cert.Spec.Arr2 256 256) (ix2 k q) := by
  obtain ⟨-, -, -, -, -, -, e0, e1, -⟩ := block_indices t
  show (V c main_arg3 : Cert.Spec.Arr2 256 256) (((cfg0.win 2).blk t).view.emb (ix2 k q)) = _
  refine congrArg _ ?_
  funext a; apply Fin.ext
  match a with
  | ⟨0, _⟩ => show win0_2.index t (0 : Fin 2) * 256 + 1 * k.val = k.val; rw [e0]; omega
  | ⟨1, _⟩ => show win0_2.index t (1 : Fin 2) * 256 + 1 * q.val = q.val; rw [e1]; omega

/-- What point t writes back is block t of the specification's array: for t < 5 the block's rows are batch rows
    4000·t …, for t ≥ 5 they are rows 20000 + 4000·(t − 5) … of the stacked matrix, the neighbour rows 4000·(t − 5) …. -/
theorem written_block (c : Dev nD) (t : Fin cfg0.N) :
    (dat0 (F := Ideal) V c).flushed 3 t
      = ((cfg0.win 3).blk t).view.read (Elt Ideal) (Cert.Spec.gemm1 (V c main_arg0) (V c main_v6) (V c main_arg3)) := by
  show (cfg0.win 3).cut (grid0.coords t) ((dat0 (F := Ideal) V c).after 3 t) = _
  rw [after0_3]
  obtain ⟨e0, e1, -, -, -, -, -, -, hc⟩ := block_indices t
  have hN : cfg0.N = 25 := rfl
  have htN := t.isLt
  funext j
  have hj0 : (j 0).val < 4000 := (j 0).isLt
  have hj1 : (j 1).val < 256 := (j 1).isLt
  have hx : (cfg0.win 3).xinj (grid0.coords t) j = ix2 (n0 := 4000) (n1 := 256) ⟨(j 0).val, hj0⟩ ⟨(j 1).val, hj1⟩ :=
    funext fun (a : Fin 2) => by match a with | ⟨0, _⟩ => rfl | ⟨1, _⟩ => rfl
  show out0_3 (F := Ideal) (grid0.coords t) (iblk0 V c 0 t) (iblk0 V c 1 t) (iblk0 V c 2 t) ((cfg0.win 3).xinj (grid0.coords t) j)
      = Cert.Spec.gemm1 (V c main_arg0) (V c main_v6) (V c main_arg3) (((cfg0.win 3).blk t).view.emb j)
  rw [hx]
  by_cases ht : t.val < 5
  · refine (out_lo (grid0.coords t) (hc.mpr ht) (iblk0 V c 0 t) (iblk0 V c 1 t) (iblk0 V c 2 t) ⟨(j 0).val, hj0⟩ ⟨(j 1).val, hj1⟩).trans ?_
    refine Eq.trans ?_ (gemm1_lo (V c main_arg0) (V c main_v6) (V c main_arg3) (((cfg0.win 3).blk t).view.emb j)
      ⟨t.val * 4000 + (j 0).val, by omega⟩ ⟨(j 1).val, hj1⟩ ?_ ?_).symm
    · refine Finset.sum_congr rfl fun k _ => ?_
      rw [rd_x V c t ht, rd_w V c t]
    · show win0_3.index t (0 : Fin 2) * 4000 + 1 * (j 0).val = t.val * 4000 + (j 0).val; rw [e0]; omega
    · show win0_3.index t (1 : Fin 2) * 256 + 1 * (j 1).val = (j 1).val; rw [e1]; omega
  · have ht' : 5 ≤ t.val := Nat.le_of_not_lt ht
    refine (out_hi (grid0.coords t) (fun h => ht (hc.mp h)) (iblk0 V c 0 t) (iblk0 V c 1 t) (iblk0 V c 2 t) ⟨(j 0).val, hj0⟩ ⟨(j 1).val, hj1⟩).trans ?_
    refine Eq.trans ?_ (gemm1_hi (V c main_arg0) (V c main_v6) (V c main_arg3) (((cfg0.win 3).blk t).view.emb j)
      ⟨(t.val - 5) * 4000 + (j 0).val, by omega⟩ ⟨(j 1).val, hj1⟩ ?_ ?_).symm
    · refine Finset.sum_congr rfl fun k _ => ?_
      rw [rd_xf V c t ht', rd_w V c t]
    · show win0_3.index t (0 : Fin 2) * 4000 + 1 * (j 0).val = 20000 + ((t.val - 5) * 4000 + (j 0).val); rw [e0]; omega
    · show win0_3.index t (1 : Fin 2) * 256 + 1 * (j 1).val = (j 1).val; rw [e1]; omega

end

/-! ## The 25 blocks cover the output array -/

/-- An index of the output array is in point t's block iff each coordinate is in the block's range on its axis. -/
theorem mem_out_block (t : Fin cfg0.N) (i : S100000x256.Idx) :
    i ∈ ((cfg0.win 3).blk t).view.set ↔ ∀ a : Fin 2, win0_3.index t a * S4000x256.size a ≤ (i a).val ∧ (i a).val < win0_3.index t a * S4000x256.size a + S4000x256.size a := by
  show i ∈ ((View.whole main_v10).slice (win0_3.rect t)).set ↔ _
  rw [View.set_slice_whole, Rect.mem_set_unit]
  exact Iff.rfl

/-- Every index of the output array is in some point's block: row r is in the block of point r / 4000. -/
theorem rows_covered (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hN : cfg0.N = 25 := rfl
  obtain ⟨t, ht⟩ : ∃ t : Fin cfg0.N, t.val = (i 0).val / 4000 := ⟨⟨(i 0).val / 4000, by omega⟩, rfl⟩
  obtain ⟨e0, e1, -⟩ := block_indices t
  refine ⟨t, flush0_3 t, ?_⟩
  rw [mem_out_block]
  intro a
  match a with
  | ⟨0, _⟩ =>
    show win0_3.index t (0 : Fin 2) * 4000 ≤ (i 0).val ∧ (i 0).val < win0_3.index t (0 : Fin 2) * 4000 + 4000
    rw [e0, ht]; omega
  | ⟨1, _⟩ =>
    show win0_3.index t (1 : Fin 2) * 256 ≤ (i 1).val ∧ (i 1).val < win0_3.index t (1 : Fin 2) * 256 + 256
    rw [e1]; omega

end Gemm

variable (V : (c : Dev nD) → (b : Ref sig .tc) → Buf (Elt Ideal) ((c : Thread nD τ).loc b))

/-- After region 0 its output array is the stacked rows times the weight. -/
theorem gemm_value (c : Dev nD) :
    (dat0 (F := Ideal) V c).arrAt 3 cfg0.N = Cert.Spec.gemm1 (V c main_arg0) (V c main_v6) (V c main_arg3) := by
  exact (dat0 (F := Ideal) V c).arrAt_eq_of_cover 3 (Cert.Spec.gemm1 (V c main_arg0) (V c main_v6) (V c main_arg3))
    (fun t _ => Gemm.written_block V c t) Gemm.rows_covered

end Cert.KernelIdeal.Val

end
-- ==== Proof.RegionReduce.lean ====
/-
  Region 1's output array: per tile of 4000 rows, the sum of the elementwise product of the two inputs over the tile,
  times 2⁻⁷, in each of 128 lanes.
-/
import proofs.«431223_j103079215401_2_alg».proof.Proof.FrameKernelIdeal
import proofs.«431223_j103079215401_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx Idealize.SL.Sem

variable (V : (c : Dev nD) → (b : Ref sig .tc) → Buf (Elt Ideal) ((c : Thread nD τ).loc b))

namespace Reduce

/-- A vector of length a viewed as a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index of a [4000, 256] block over row r with lane q inserted. -/
theorem lift_lane (r : Fin 4000) (q : Fin 256) :
    reduces_S4000x256_S4000.lift (ix1 r) q = ix2 r q := by
  funext c; apply Fin.ext
  match c with
  | ⟨0, _⟩ => rfl
  | ⟨1, _⟩ => rfl

/-- The index of a [4000, 1] column over its one lane with row r inserted. -/
theorem lift_row (u : Fin 1) (r : Fin 4000) :
    reduces_S4000x1_S1.lift (ix1 u) r = ix2 r u := by
  funext c; apply Fin.ext
  match c with
  | ⟨0, _⟩ => rfl
  | ⟨1, _⟩ => rfl

/-- The body's arithmetic at a lane: the product of the two blocks summed over the 256 lanes of each row, the 4000 row sums
    summed, the total times 2⁻⁷, the same in each of the 128 lanes. -/
theorem tile_sum_at_lane (x0 x1 : FVec Ideal S4000x256 .f32) (a b : Fin 1) (l : Fin 128) :
    k1_pay1 x0 x1 (ix3 a b l) = (∑ r : Fin 4000, ∑ q : Fin 256, x0 (ix2 r q) * x1 (ix2 r q)) * Cert.Spec.c128 := by
  unfold k1_pay1
  dsimp only
  refine (broadcastTo_apply _ _ (ix3 a b l) (ix3 (0 : Fin 1) (0 : Fin 1) (0 : Fin 1)) ?_).trans ?_
  · intro c
    match c with
    | ⟨0, _⟩ => rfl
    | ⟨1, _⟩ => rfl
    | ⟨2, _⟩ => rfl
  refine (shapeCast_ab_1ab_apply _ _ (0 : Fin 1) (0 : Fin 1) (0 : Fin 1)).trans ?_
  refine (mulf_apply _ _ _).trans ?_
  refine congrArg (· * Cert.Spec.c128) ?_
  refine (shapeCast_a_1a_apply _ _ (0 : Fin 1) (0 : Fin 1)).trans ?_
  refine (Ideal.multiReduction_add_single _ _ reduces_S4000x1_S1 _ _ (ix1 (0 : Fin 1))).trans ?_
  refine Finset.sum_congr rfl fun r _ => ?_
  refine (congrArg _ (lift_row 0 r)).trans ?_
  refine (shapeCast_a_a1_apply _ _ r (0 : Fin 1)).trans ?_
  refine (Ideal.multiReduction_add_single _ _ reduces_S4000x256_S4000 _ _ (ix1 r)).trans ?_
  refine Finset.sum_congr rfl fun q _ => ?_
  refine (congrArg _ (lift_lane r q)).trans ?_
  refine (mulf_apply _ _ _).trans ?_
  rw [shapeCast_self, shapeCast_self]

/-- The payload over a pair of blocks that are tile (i 0) of two arrays is the specification's entry at i. -/
theorem tile_val (x0 x1 : FVec Ideal S4000x256 .f32) (A B : Cert.Spec.Arr2 80000 256) (i : S20x1x128.Idx)
    (h0 : ∀ (r : Fin 4000) (q : Fin 256), x0 (ix2 r q) = A (ix2 (Cert.Spec.tileRow ⟨(i 0).val, (i 0).isLt⟩ r) q))
    (h1 : ∀ (r : Fin 4000) (q : Fin 256), x1 (ix2 r q) = B (ix2 (Cert.Spec.tileRow ⟨(i 0).val, (i 0).isLt⟩ r) q))
    (j : S1x1x128.Idx) : k1_pay1 (F := Ideal) x0 x1 j = Cert.Spec.partials A B i := by
  obtain ⟨a, b, l, rfl⟩ : ∃ (a : Fin 1) (b : Fin 1) (l : Fin 128), j = ix3 a b l := ⟨j 0, j 1, j 2, eq_ix3 j⟩
  rw [tile_sum_at_lane]
  unfold Cert.Spec.partials
  simp only [h0, h1]

/-- The zero offsets of a whole [4000, 256] block, and of a whole [1, 1, 128] block, as constant functions. -/
theorem zero_off2 : (![0, 0] : Fin 2 → Nat) = fun _ => 0 := funext fun a => by fin_cases a <;> rfl
theorem zero_off3 : (![0, 0, 0] : Fin 3 → Nat) = fun _ => 0 := funext fun a => by fin_cases a <;> rfl

/-- The printed index maps over the grid: point t reads row block t of both inputs and writes block (t, 0, 0). -/
theorem tile_index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- What point t writes back is block (t, 0, 0) of the specification's array of the two input arrays: the input blocks at t are
    rows 4000 t … 4000 t + 3999 of the inputs, which is tile t. -/
theorem tile_written (c : Dev nD) (t : Fin cfg1.N) :
    (dat1 (F := Ideal) V c).flushed 2 t
      = ((cfg1.win 2).blk t).view.read (Elt Ideal) (Cert.Spec.partials (V c main_v32) (V c main_v9)) := by
  show (cfg1.win 2).cut (grid1.coords t) ((dat1 V c).after 2 t) = _
  rw [after1_2]
  unfold out1_2
  rw [View.canon_unit_zero zero_off3]
  simp only [View.ld_unit_zero (S := S4000x256) zero_off2]
  obtain ⟨e0, e1, e2, e3, e4, e5, e6⟩ := tile_index_maps t
  funext j
  show k1_pay1 (F := Ideal) (iblk1 V c 0 t) (iblk1 V c 1 t) j
    = Cert.Spec.partials (V c main_v32) (V c main_v9) (((cfg1.win 2).blk t).view.emb j)
  refine tile_val (iblk1 V c 0 t) (iblk1 V c 1 t) (V c main_v32) (V c main_v9) (((cfg1.win 2).blk t).view.emb j) ?_ ?_ j
  · intro r q
    show V c main_v32 (((cfg1.win 0).blk t).view.emb (ix2 r q)) = _
    refine congrArg (V c main_v32) (funext fun a => Fin.ext ?_)
    have hj : (j 0).val < 1 := (j 0).isLt
    match a with
    | ⟨0, _⟩ =>
      show win1_0.index t (0 : Fin 2) * 4000 + 1 * r.val = (win1_2.index t (0 : Fin 3) * 1 + 1 * (j 0).val) * 4000 + r.val
      omega
    | ⟨1, _⟩ =>
      show win1_0.index t (1 : Fin 2) * 256 + 1 * q.val = q.val
      omega
  · intro r q
    show V c main_v9 (((cfg1.win 1).blk t).view.emb (ix2 r q)) = _
    refine congrArg (V c main_v9) (funext fun a => Fin.ext ?_)
    have hj : (j 0).val < 1 := (j 0).isLt
    match a with
    | ⟨0, _⟩ =>
      show win1_1.index t (0 : Fin 2) * 4000 + 1 * r.val = (win1_2.index t (0 : Fin 3) * 1 + 1 * (j 0).val) * 4000 + r.val
      omega
    | ⟨1, _⟩ =>
      show win1_1.index t (1 : Fin 2) * 256 + 1 * q.val = q.val
      omega

/-- An index of the [20, 1, 128] array is in point t's block iff each coordinate is in the block's range on its axis. -/
theorem mem_tile_block (t : Fin cfg1.N) (i : S20x1x128.Idx) :
    i ∈ ((cfg1.win 2).blk t).view.set ↔ ∀ a : Fin 3, win1_2.index t a * S1x1x128.size a ≤ (i a).val ∧ (i a).val < win1_2.index t a * S1x1x128.size a + S1x1x128.size a := by
  show i ∈ ((View.whole main_v33).slice (win1_2.rect t)).set ↔ _
  rw [View.set_slice_whole, Rect.mem_set_unit]
  exact Iff.rfl

end Reduce

open Reduce

/-- After region 1 its output array holds the tiles' scaled partial sums. -/
theorem reduce_value (c : Dev nD) :
    (dat1 (F := Ideal) V c).arrAt 2 cfg1.N = Cert.Spec.partials (V c main_v32) (V c main_v9) := by
  refine (dat1 (F := Ideal) V c).arrAt_eq_of_cover 2 (Cert.Spec.partials (V c main_v32) (V c main_v9))
    (fun t _ => tile_written V c t) fun i => ?_
  have hi0 : (i 0).val < 20 := (i 0).isLt
  have hi1 : (i 1).val < 1 := (i 1).isLt
  have hi2 : (i 2).val < 128 := (i 2).isLt
  refine ⟨⟨(i 0).val, hi0⟩, flush1_2 _, ?_⟩
  rw [mem_tile_block]
  obtain ⟨-, -, -, -, e4, e5, e6⟩ := tile_index_maps ⟨(i 0).val, hi0⟩
  have e4' : win1_2.index ⟨(i 0).val, hi0⟩ (0 : Fin 3) = (i 0).val := e4
  intro a
  match a with
  | ⟨0, _⟩ =>
    show win1_2.index ⟨(i 0).val, hi0⟩ (0 : Fin 3) * 1 ≤ (i 0).val ∧ (i 0).val < win1_2.index ⟨(i 0).val, hi0⟩ (0 : Fin 3) * 1 + 1
    rw [e4']; omega
  | ⟨1, _⟩ =>
    show win1_2.index ⟨(i 0).val, hi0⟩ (1 : Fin 3) * 1 ≤ (i 1).val ∧ (i 1).val < win1_2.index ⟨(i 0).val, hi0⟩ (1 : Fin 3) * 1 + 1
    rw [e5]; omega
  | ⟨2, _⟩ =>
    show win1_2.index ⟨(i 0).val, hi0⟩ (2 : Fin 3) * 128 ≤ (i 2).val ∧ (i 2).val < win1_2.index ⟨(i 0).val, hi0⟩ (2 : Fin 3) * 128 + 128
    rw [e6]; omega

end Cert.KernelIdeal.Val

end
-- ==== Proof.RegionDual.lean ====
/-
  Region 2's output array: the output transform, (xo·Wt + x·Ws) + bias, block by block of 2000 rows.
-/
import proofs.«431223_j103079215401_2_alg».proof.Proof.FrameKernelIdeal
import proofs.«431223_j103079215401_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx Idealize.SL.Sem

variable (V : (c : Dev nD) → (b : Ref sig .tc) → Buf (Elt Ideal) ((c : Thread nD τ).loc b))

namespace Dual

/-! ## The body's arithmetic at an index -/

/-- Where the contraction of both products (rows of a [2000, 256] block against columns of a [256, 256] matrix) reads its
    operands, axis by axis: the left operand at (the output's row, k), the right operand at (k, the output's column). -/
theorem contr_lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem contr_lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem contr_rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem contr_rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A product into the zero accumulator, read at row `p`, column `q`: ∑ₖ l[p, k] · r[k, q]. -/
theorem product_apply {φ₁ φ₂ : FTy} (l : FVec Ideal S2000x256 φ₁) (r : FVec Ideal S256x256 φ₂) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact contr_lhs_0 _ _
    | ⟨1, _⟩ => exact (contr_lhs_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (contr_rhs_0 _ _).trans hk
    | ⟨1, _⟩ => exact contr_rhs_1 _ _)
  rw [el, er]

/-- The [1, 256] row broadcast down the 2000 rows, read at (p, q), is the row at (0, q). -/
theorem bias_row_apply (b : FVec Ideal S1x256 .f32) (p : Fin 2000) (q : Fin 256) :
    broadcastTo S2000x256 b broadcasts_S1x256_S2000x256 (ix2 p q) = b (ix2 0 q) := by
  refine broadcastTo_apply b _ (ix2 p q) (ix2 0 q) fun a => ?_
  match a with
  | ⟨0, _⟩ => rfl
  | ⟨1, _⟩ => rfl

/-- The body's stored value at row `p`, column `q` of the block: the two products added, plus the bias row. -/
theorem stored_apply (x0 x1 : Vec Ideal S2000x256 .f32) (w0 w1 : Vec Ideal S256x256 .f32) (b : Vec Ideal S1x256 .f32)
    (p : Fin 2000) (q : Fin 256) :
    k2_pay1 x0 x1 w0 w1 b (ix2 p q)
      = ((∑ k : Fin 256, x0 (ix2 p k) * w0 (ix2 k q)) + (∑ k : Fin 256, x1 (ix2 p k) * w1 (ix2 k q))) + b (ix2 0 q) := by
  unfold k2_pay1
  simp only [shapeCast_self]
  rw [addf_apply, addf_apply, product_apply, product_apply, bias_row_apply]
  rfl

/-! ## From blocks to the array -/

theorem zero_offsets : (![0, 0] : Fin 2 → Nat) = fun _ => 0 := funext fun a => by fin_cases a <;> rfl

/-- The printed index maps over the grid: the three [20000, 256] windows sit at row block `t`, column block 0;
    the two weight matrices and the bias row are whole, at block (0, 0). -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The body's stored value is the specification's entry: over any blocks that are rows `n · 2000 …` of two
    [20000, 256] arrays, the two whole matrices and the whole bias row, the stored value at (p, q) of the block is the
    output transform at row `n · 2000 + p`, column `q`. -/
theorem stored_eq_dualK (xo x : Spec.Arr2 20000 256) (wt ws : Spec.Arr2 256 256) (bias : Spec.Arr2 1 256)
    (x0 x1 : Vec Ideal S2000x256 .f32) (w0 w1 : Vec Ideal S256x256 .f32) (b : Vec Ideal S1x256 .f32)
    (n : Nat) (hn : n < 10)
    (h0 : ∀ (p : Fin 2000) (k : Fin 256), x0 (ix2 p k) = xo (ix2 ⟨n * 2000 + p.val, by have := p.isLt; omega⟩ k))
    (h1 : ∀ (p : Fin 2000) (k : Fin 256), x1 (ix2 p k) = x (ix2 ⟨n * 2000 + p.val, by have := p.isLt; omega⟩ k))
    (h2 : w0 = wt) (h3 : w1 = ws) (h4 : b = bias)
    (j : S2000x256.Idx) (i : S20000x256.Idx) (hi0 : (i 0).val = n * 2000 + (j 0).val) (hi1 : (i 1).val = (j 1).val) :
    k2_pay1 x0 x1 w0 w1 b j = Spec.dualK xo x wt ws bias i := by
  obtain ⟨p, q, rfl⟩ : ∃ (p : Fin 2000) (q : Fin 256), j = ix2 p q := ⟨j 0, j 1, eq_ix2 j⟩
  subst h2 h3 h4
  rw [stored_apply]
  unfold Spec.dualK Spec.mm
  have e0 : (⟨(i 0).val, idx2_lt0 i⟩ : Fin 20000) = ⟨n * 2000 + p.val, by have := p.isLt; omega⟩ := Fin.ext hi0
  have e1 : (⟨(i 1).val, idx2_lt1 i⟩ : Fin 256) = q := Fin.ext hi1
  rw [e0, e1]
  simp only [h0, h1]

/-- Row `p` of input window 0's block at point `t` is row `t · 2000 + p` of its array. -/
theorem xo_rows (c : Dev nD) (t : Fin cfg2.N) (p : Fin 2000) (k : Fin 256) :
    (iblk2 V c 0 t : Vec Ideal S2000x256 .f32) (ix2 p k)
      = (V c main_v37 : Spec.Arr2 20000 256) (ix2 ⟨t.val * 2000 + p.val, by have := p.isLt; have : t.val < 10 := t.isLt; omega⟩ k) := by
  obtain ⟨e0, e1, -⟩ := block_indices t
  unfold iblk2
  rw [View.read_apply]
  show V c main_v37 _ = V c main_v37 _
  refine congrArg (V c main_v37) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 256 + 1 * k.val = k.val; rw [e1]; omega

/-- Row `p` of input window 1's block at point `t` is row `t · 2000 + p` of its array. -/
theorem x_rows (c : Dev nD) (t : Fin cfg2.N) (p : Fin 2000) (k : Fin 256) :
    (iblk2 V c 1 t : Vec Ideal S2000x256 .f32) (ix2 p k)
      = (V c main_arg0 : Spec.Arr2 20000 256) (ix2 ⟨t.val * 2000 + p.val, by have := p.isLt; have : t.val < 10 := t.isLt; omega⟩ k) := by
  obtain ⟨-, -, e0, e1, -⟩ := block_indices t
  unfold iblk2
  rw [View.read_apply]
  show V c main_arg0 _ = V c main_arg0 _
  refine congrArg (V c main_arg0) (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 256 + 1 * k.val = k.val; rw [e1]; omega

/-- Window 2's block is its whole [256, 256] array at every point. -/
theorem wt_whole (c : Dev nD) (t : Fin cfg2.N) :
    (iblk2 V c 2 t : Vec Ideal S256x256 .f32) = (V c main_arg5 : Spec.Arr2 256 256) := by
  obtain ⟨-, -, -, -, e0, e1, -⟩ := block_indices t
  funext y
  unfold iblk2
  rw [View.read_apply]
  show V c main_arg5 _ = V c main_arg5 y
  refine congrArg (V c main_arg5) (funext fun a => Fin.ext ?_)
  match a with
  | ⟨0, _⟩ => show win2_2.index t (0 : Fin 2) * 256 + 1 * (y 0).val = (y 0).val; rw [e0]; omega
  | ⟨1, _⟩ => show win2_2.index t (1 : Fin 2) * 256 + 1 * (y 1).val = (y 1).val; rw [e1]; omega

/-- Window 3's block is its whole [256, 256] array at every point. -/
theorem ws_whole (c : Dev nD) (t : Fin cfg2.N) :
    (iblk2 V c 3 t : Vec Ideal S256x256 .f32) = (V c main_arg7 : Spec.Arr2 256 256) := by
  obtain ⟨-, -, -, -, -, -, e0, e1, -⟩ := block_indices t
  funext y
  unfold iblk2
  rw [View.read_apply]
  show V c main_arg7 _ = V c main_arg7 y
  refine congrArg (V c main_arg7) (funext fun a => Fin.ext ?_)
  match a with
  | ⟨0, _⟩ => show win2_3.index t (0 : Fin 2) * 256 + 1 * (y 0).val = (y 0).val; rw [e0]; omega
  | ⟨1, _⟩ => show win2_3.index t (1 : Fin 2) * 256 + 1 * (y 1).val = (y 1).val; rw [e1]; omega

/-- Window 4's block is its whole [1, 256] row at every point. -/
theorem bias_whole (c : Dev nD) (t : Fin cfg2.N) :
    (iblk2 V c 4 t : Vec Ideal S1x256 .f32) = (V c main_v39 : Spec.Arr2 1 256) := by
  obtain ⟨-, -, -, -, -, -, -, -, e0, e1, -⟩ := block_indices t
  funext y
  unfold iblk2
  rw [View.read_apply]
  show V c main_v39 _ = V c main_v39 y
  refine congrArg (V c main_v39) (funext fun a => Fin.ext ?_)
  match a with
  | ⟨0, _⟩ => show win2_4.index t (0 : Fin 2) * 1 + 1 * (y 0).val = (y 0).val; rw [e0]; omega
  | ⟨1, _⟩ => show win2_4.index t (1 : Fin 2) * 256 + 1 * (y 1).val = (y 1).val; rw [e1]; omega

/-- What point `t` writes back is block `t` of the output transform of the five input arrays. -/
theorem written_block (c : Dev nD) (t : Fin cfg2.N) :
    (dat2 (F := Ideal) V c).flushed 5 t
      = ((cfg2.win 5).blk t).view.read (Elt Ideal)
          (Cert.Spec.dualK (V c main_v37) (V c main_arg0) (V c main_arg5) (V c main_arg7) (V c main_v39)) := by
  show (cfg2.win 5).cut (grid2.coords t) ((dat2 V c).after 5 t) = _
  rw [after2_5]
  unfold out2_5
  rw [View.canon_unit_zero zero_offsets]
  simp only [View.ld_unit_zero (S := S2000x256) zero_offsets, View.ld_unit_zero (S := S256x256) zero_offsets, View.ld_unit_zero (S := S1x256) zero_offsets]
  obtain ⟨-, -, -, -, -, -, -, -, -, -, e0, e1⟩ := block_indices t
  funext j
  show k2_pay1 (iblk2 V c 0 t) (iblk2 V c 1 t) (iblk2 V c 2 t) (iblk2 V c 3 t) (iblk2 V c 4 t) j
    = Cert.Spec.dualK (V c main_v37) (V c main_arg0) (V c main_arg5) (V c main_arg7) (V c main_v39) (((cfg2.win 5).blk t).view.emb j)
  refine stored_eq_dualK (V c main_v37) (V c main_arg0) (V c main_arg5) (V c main_arg7) (V c main_v39)
    (iblk2 V c 0 t) (iblk2 V c 1 t) (iblk2 V c 2 t) (iblk2 V c 3 t) (iblk2 V c 4 t) t.val t.isLt
    (fun p k => xo_rows V c t p k) (fun p k => x_rows V c t p k) (wt_whole V c t) (ws_whole V c t) (bias_whole V c t)
    j (((cfg2.win 5).blk t).view.emb j) ?_ ?_
  · show win2_5.index t (0 : Fin 2) * 2000 + 1 * (j 0).val = t.val * 2000 + (j 0).val; rw [e0]; omega
  · show win2_5.index t (1 : Fin 2) * 256 + 1 * (j 1).val = (j 1).val; rw [e1]; omega

/-- An index of the output array is in point `t`'s block iff each coordinate is in the block's range on its axis. -/
theorem mem_row_block (t : Fin cfg2.N) (i : S20000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v40).slice (win2_5.rect t)).set ↔ _
  rw [View.set_slice_whole, Rect.mem_set_unit]
  exact Iff.rfl

/-- Every row `r` of the output array is in the block of point `r / 2000`: the ten row blocks tile the array. -/
theorem rows_covered (i : S20000x256.Idx) :
    ∃ t : Fin cfg2.N, (cfg2.win 5).flush t = true ∧ i ∈ ((cfg2.win 5).blk t).view.set := by
  have hi0 : (i 0).val < 20000 := (i 0).isLt
  have hi1 : (i 1).val < 256 := (i 1).isLt
  have ht : (i 0).val / 2000 < grid2.N := by rw [N_2]; omega
  refine ⟨⟨(i 0).val / 2000, ht⟩, flush2_5 _, ?_⟩
  obtain ⟨-, -, -, -, -, -, -, -, -, -, e0, e1⟩ := block_indices ⟨(i 0).val / 2000, ht⟩
  rw [mem_row_block]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 256 ≤ (i 1).val ∧ (i 1).val < win2_5.index ⟨(i 0).val / 2000, ht⟩ (1 : Fin 2) * 256 + 256
    rw [e1]; omega

end Dual

/-- After region 2 its output array is the output transform of the region's five input arrays. -/
theorem dual_value (c : Dev nD) :
    (dat2 (F := Ideal) V c).arrAt 5 cfg2.N
      = Cert.Spec.dualK (V c main_v37) (V c main_arg0) (V c main_arg5) (V c main_arg7) (V c main_v39) := by
  exact (dat2 (F := Ideal) V c).arrAt_eq_of_cover 5
    (Cert.Spec.dualK (V c main_v37) (V c main_arg0) (V c main_arg5) (V c main_arg7) (V c main_v39))
    (fun t _ => Dual.written_block V c t) Dual.rows_covered

end Cert.KernelIdeal.Val

end
-- ==== Proof.LibTakeFill.lean ====
/-
  A filling gather whose bounds test passes everywhere is the plain gather.

  A gather that fills out-of-range rows with a constant is a `select` between the gathered rows and the constant under
  a one-bit mask: the "and" over a row's index components of "the component is in range". Where every component is in
  range the reduce is one at every row, and a `select` under an all-ones mask is its first branch.
-/
import Idealize.ShloMosaic.PureOps.Ideal
import Idealize.ShloMosaic.Lib.ReduceAll
import Idealize.ShloMosaic.Lib.ValueIdx

namespace Cert.TakeFill

open Idealize.ShloMosaic

/-- A left fold by "and" from one over words that are all one is one. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => foldl_andi_of_all f l _ (by show IntOp.andi init (f a) = 1#1; rw [h, hl a List.mem_cons_self]; decide)
      (fun n hn => hl n (List.mem_cons_of_mem _ hn))

/-- A reduce by "and" from one over an array of ones is one at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_of_all x _ _ hinit (fun n _ => hx n)

/-- A `select` under a mask that is one everywhere is its first branch. -/
theorem select_of_mask_one {s : Shape} {α : Type} (M : IVec s 1) (a b : s.Idx → α) (hM : ∀ i, M i = 1#1) : select M a b = a := by
  funext i
  rw [ValueIdx.select_apply]
  unfold Scalar.select
  exact if_pos (hM i)

end Cert.TakeFill
-- ==== Proof.Gathers.lean ====
/-
  Where every neighbour position lies in [0, 200000) and every code in [0, 4096), the kernel program's filled lookups
  are the reference's plain ones: each bounds test passes everywhere, so each fill's mask is all ones and the `select`
  under it is its first branch; and the two gathers of the codebook, one batched over the branch and entry axes with
  the code as its one start index, the other with (branch, code) pairs as start indices, read the same entry
  (b, code[b, n], e) of the codebook at result index (b, n, e), because branch and code are already inside the
  ranges they would be clamped to.
-/
import proofs.«431223_j103079215401_2_alg».proof.Proof.LookupK
import proofs.«431223_j103079215401_2_alg».proof.Proof.Shared
import proofs.«431223_j103079215401_2_alg».proof.Proof.LibTakeFill
import Idealize.ShloMosaic.Lib.ValueIdx
import Idealize.ShloMosaic.Lib.Pipeline.Value
import Idealize.ShloMosaic.Lib.StableHlo.Predicate

noncomputable section

namespace Cert.Lookup

open Idealize.ShloMosaic Idealize.ShloMosaic.ValueIdx

/-- A word below 2³¹ is not negative, so counting it from the end where it is negative leaves it as it is. -/
theorem norm_word (v c : BitVec 32) (hv : v.toNat < 2 ^ 31) :
    Scalar.select (IntOp.cmpi .slt v 0#32) (IntOp.addi v c) v = v := by
  unfold Scalar.select
  rw [if_neg]
  intro h
  have h' := (StableHlo.Predicate.slt_iff_toNat hv (by decide)).1 h
  simp at h'

/-- A word between 0 and a bound below 2³¹ passes the two signed bounds tests. -/
theorem inrange_word (v hi : BitVec 32) (hhi : hi.toNat < 2 ^ 31) (hv : v.toNat ≤ hi.toNat) :
    IntOp.andi (IntOp.cmpi .sge v 0#32) (IntOp.cmpi .sle v hi) = 1#1 := by
  rw [(StableHlo.Predicate.sge_iff_toNat (by omega) (by decide)).2 (by simp), (StableHlo.Predicate.sle_iff_toNat (by omega) hhi).2 hv]
  rfl

/-- A word below a count N ≤ 2³¹, counted from the end where negative, passes the tests "at least 0" and
    "at most N − 1". -/
theorem word_ok (v c hi : BitVec 32) (N : Nat) (hN : N ≤ 2 ^ 31) (hv : v.toNat < N) (hhi : hi.toNat = N - 1) :
    IntOp.andi (IntOp.cmpi .sge (Scalar.select (IntOp.cmpi .slt v 0#32) (IntOp.addi v c) v) 0#32)
      (IntOp.cmpi .sle (Scalar.select (IntOp.cmpi .slt v 0#32) (IntOp.addi v c) v) hi) = 1#1 := by
  rw [norm_word v c (by omega)]
  exact inrange_word v hi (by omega) (by omega)

/-- With every position in [0, 200000) the positions' bounds test passes everywhere. -/
theorem posOkK_one (foi : IVec Cert.KernelIdeal.S80000 32) (hfoi : ∀ n, (foi n).toNat < 200000) (n : Cert.KernelIdeal.S80000.Idx) :
    Cert.LookupK.posOkK foi n = 1#1 := by
  unfold Cert.LookupK.posOkK
  refine Cert.TakeFill.reduce_andi_of_all _ _ _ _ rfl (fun i => ?_) n
  unfold Cert.LookupK.posK
  show IntOp.andi (IntOp.cmpi .sge (Scalar.select (IntOp.cmpi .slt (foi _) 0#32) (IntOp.addi (foi _) 200000#32) (foi _)) 0#32)
    (IntOp.cmpi .sle (Scalar.select (IntOp.cmpi .slt (foi _) 0#32) (IntOp.addi (foi _) 200000#32) (foi _)) 199999#32) = 1#1
  exact word_ok _ _ _ 200000 (by decide) (hfoi _) rfl

/-- With every position in range the kernel's filled codes are the reference's codes. -/
theorem codesK_eq_codes (ci : IVec Cert.KernelIdeal.S8x200000 32) (foi : IVec Cert.KernelIdeal.S80000 32)
    (hfoi : ∀ n, (foi n).toNat < 200000) : Cert.LookupK.codesK ci foi = Cert.Shared.codes ci foi := by
  unfold Cert.LookupK.codesK
  rw [Cert.TakeFill.select_of_mask_one _ _ _ (fun i => by unfold broadcastInDim; exact posOkK_one foi hfoi _)]
  rfl

/-- With every entry of the code table in [0, 4096) so is every code (a gather returns entries of its operand). -/
theorem codes_lt (ci : IVec Cert.ReferenceIdeal.S8x200000 32) (foi : IVec Cert.ReferenceIdeal.S80000 32)
    (hci : ∀ i, (ci i).toNat < 4096) : ∀ j, (Cert.Shared.codes ci foi j).toNat < 4096 := by
  intro j
  unfold Cert.Shared.codes Host.gather
  exact hci _

/-- With every code in [0, 4096) the codes' bounds test passes everywhere. -/
theorem codeOkK_one (cd : IVec Cert.KernelIdeal.S8x80000 32) (hcd : ∀ j, (cd j).toNat < 4096) (i : Cert.KernelIdeal.S8x80000x64.Idx) :
    Cert.LookupK.codeOkK cd i = 1#1 := by
  unfold Cert.LookupK.codeOkK
  refine Cert.TakeFill.reduce_andi_of_all _ _ _ _ rfl (fun i => ?_) _
  unfold Cert.LookupK.codeIdxK
  show IntOp.andi (IntOp.cmpi .sge (Scalar.select (IntOp.cmpi .slt (cd _) 0#32) (IntOp.addi (cd _) 4096#32) (cd _)) 0#32)
    (IntOp.cmpi .sle (Scalar.select (IntOp.cmpi .slt (cd _) 0#32) (IntOp.addi (cd _) 4096#32) (cd _)) 4095#32) = 1#1
  exact word_ok _ _ _ 4096 (by decide) (hcd _) rfl

/-- The kernel's start index for result entry (b, n, e) is the code of neighbour n in branch b. -/
theorem codeIdxK_apply (cd : IVec Cert.KernelIdeal.S8x80000 32) (hcd : ∀ j, (cd j).toNat < 4096)
    (b : Fin 8) (n : Fin 80000) (e : Fin 64) (z : Fin 1) :
    Cert.LookupK.codeIdxK cd (ix4 b n e z) = cd (ix2 b n) := by
  unfold Cert.LookupK.codeIdxK
  rw [shapeCast_apply _ _ (ix4 b n e z) (ix3 b n e) (by
    rw [Shape.rowMajor_val_three, Shape.rowMajor_val_four]
    show (b.val * 80000 + n.val) * 64 + e.val = ((b.val * 80000 + n.val) * 64 + e.val) * 1 + z.val
    omega)]
  show Scalar.select (IntOp.cmpi .slt (cd _) 0#32) (IntOp.addi (cd _) 4096#32) (cd _) = cd (ix2 b n)
  refine (norm_word _ _ (Nat.lt_trans (hcd _) (by decide))).trans ?_
  congr 1
  funext a
  match a with
  | ⟨0, _⟩ => rfl
  | ⟨1, _⟩ => rfl

section KernelGather
open Cert.KernelIdeal Cert.KernelIdeal.Gen

/-- The kernel's batched gather read at (b, n, e): the operand at (b, start, e), the start being the start index at
    (b, n, e, 0) read signed and clamped into [0, 4095]. Axes 0 and 2 of the operand are batching axes, paired with
    axes 0 and 2 of the start indices, which the result's axes 0 and 2 read; axis 1 is collapsed and is the one the
    start index names. -/
theorem gatherK_apply {α : Type} {w : Nat} (x : S8x4096x64.Idx → α) (idx : IVec S8x80000x64x1 w)
    (b : Fin 8) (n : Fin 80000) (e : Fin 64) :
    Host.gather gather_S8x4096x64_S8x80000x64x1_S8x80000x64_n_1_02_02_1_3_111 x idx (ix3 b n e)
      = x (ix3 b ⟨min (idx (ix4 b n e (0 : Fin 1))).toInt.toNat 4095, by omega⟩ e) := by
  unfold Host.gather
  congr 1
  funext a
  refine Fin.ext ?_
  match a with
  | ⟨0, _⟩ =>
    show GatherDims.start _ (ix3 b n e) idx 0 + GatherDims.batchCoord _ (ix3 b n e) 0 + GatherDims.offCoord _ (ix3 b n e) 0 = b.val
    rw [GatherDims.start_batching _ _ _ _ (show (0 : Fin 3) ∈ [0, 2] from by decide),
      GatherDims.offCoord_eq_zero _ _ _ (fun h => ((GatherDims.mem_sKept _ _).mp h).2 (show (0 : Fin 3) ∈ [0, 2] from by decide)),
      Nat.zero_add, Nat.add_zero]
    unfold GatherDims.batchCoord
    rw [dif_pos (show (0 : Fin 3) ∈ GatherDims.operandBatchingDims gather_S8x4096x64_S8x80000x64x1_S8x80000x64_n_1_02_02_1_3_111 from by decide)]
    rfl
  | ⟨1, _⟩ =>
    show GatherDims.start _ (ix3 b n e) idx 1 + GatherDims.batchCoord _ (ix3 b n e) 1 + GatherDims.offCoord _ (ix3 b n e) 1 = _
    rw [GatherDims.batchCoord_eq_zero _ _ _ (show (1 : Fin 3) ∉ [0, 2] from by decide),
      GatherDims.offCoord_eq_zero _ _ _ (fun h => ((GatherDims.mem_sKept _ _).mp h).1 (show (1 : Fin 3) ∈ [1] from by decide))]
    simp only [Nat.add_zero]
    unfold GatherDims.start
    rw [dif_pos (show (1 : Fin 3) ∈ GatherDims.startIndexMap gather_S8x4096x64_S8x80000x64x1_S8x80000x64_n_1_02_02_1_3_111 from by decide)]
    have hsi : GatherDims.siIdx gather_S8x4096x64_S8x80000x64x1_S8x80000x64_n_1_02_02_1_3_111 (ix3 b n e)
        ⟨List.idxOf (1 : Fin 3) (GatherDims.startIndexMap gather_S8x4096x64_S8x80000x64x1_S8x80000x64_n_1_02_02_1_3_111),
          List.idxOf_lt_length_iff.2 (show (1 : Fin 3) ∈ GatherDims.startIndexMap gather_S8x4096x64_S8x80000x64x1_S8x80000x64_n_1_02_02_1_3_111 from by decide)⟩ = ix4 b n e (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨2, _⟩ =>
    show GatherDims.start _ (ix3 b n e) idx 2 + GatherDims.batchCoord _ (ix3 b n e) 2 + GatherDims.offCoord _ (ix3 b n e) 2 = e.val
    rw [GatherDims.start_batching _ _ _ _ (show (2 : Fin 3) ∈ [0, 2] from by decide),
      GatherDims.offCoord_eq_zero _ _ _ (fun h => ((GatherDims.mem_sKept _ _).mp h).2 (show (2 : Fin 3) ∈ [0, 2] from by decide)),
      Nat.zero_add, Nat.add_zero]
    unfold GatherDims.batchCoord
    rw [dif_pos (show (2 : Fin 3) ∈ GatherDims.operandBatchingDims gather_S8x4096x64_S8x80000x64x1_S8x80000x64_n_1_02_02_1_3_111 from by decide)]
    rfl

end KernelGather

section ReferenceGather
open Cert.ReferenceIdeal Cert.ReferenceIdeal.Gen

/-- The reference's pair gather read at (b, n, e): the operand at (start₀, start₁, e), the two starts being the pair at
    (b, n) read signed and clamped into [0, 7] and [0, 4095]. Axes 0 and 1 of the operand are collapsed and are the
    ones the pair names; axis 2 is the one offset axis, read by the result's axis 2. -/
theorem gatherR_apply {α : Type} {w : Nat} (x : S8x4096x64.Idx → α) (idx : IVec S8x80000x2 w)
    (b : Fin 8) (n : Fin 80000) (e : Fin 64) :
    Host.gather gather_S8x4096x64_S8x80000x2_S8x80000x64_2_01_n_n_01_2_1164 x idx (ix3 b n e)
      = x (ix3 ⟨min (idx (ix3 b n (0 : Fin 2))).toInt.toNat 7, by omega⟩
          ⟨min (idx (ix3 b n (1 : Fin 2))).toInt.toNat 4095, by omega⟩ e) := by
  unfold Host.gather
  congr 1
  funext a
  refine Fin.ext ?_
  match a with
  | ⟨0, _⟩ =>
    show GatherDims.start _ (ix3 b n e) idx 0 + GatherDims.batchCoord _ (ix3 b n e) 0 + GatherDims.offCoord _ (ix3 b n e) 0 = _
    rw [GatherDims.batchCoord_eq_zero _ _ _ (show (0 : Fin 3) ∉ [] from List.not_mem_nil),
      GatherDims.offCoord_eq_zero _ _ _ (fun h => ((GatherDims.mem_sKept _ _).mp h).1 (show (0 : Fin 3) ∈ [0, 1] from by decide))]
    simp only [Nat.add_zero]
    unfold GatherDims.start
    rw [dif_pos (show (0 : Fin 3) ∈ GatherDims.startIndexMap gather_S8x4096x64_S8x80000x2_S8x80000x64_2_01_n_n_01_2_1164 from by decide)]
    have hsi : GatherDims.siIdx gather_S8x4096x64_S8x80000x2_S8x80000x64_2_01_n_n_01_2_1164 (ix3 b n e)
        ⟨List.idxOf (0 : Fin 3) (GatherDims.startIndexMap gather_S8x4096x64_S8x80000x2_S8x80000x64_2_01_n_n_01_2_1164),
          List.idxOf_lt_length_iff.2 (show (0 : Fin 3) ∈ GatherDims.startIndexMap gather_S8x4096x64_S8x80000x2_S8x80000x64_2_01_n_n_01_2_1164 from by decide)⟩ = ix3 b n (0 : Fin 2) := by
      funext c; refine Fin.ext ?_
      match c with
      | ⟨0, _⟩ => rfl
      | ⟨1, _⟩ => rfl
      | ⟨2, _⟩ => rfl
    rw [hsi]
    rfl
  | ⟨1, _⟩ =>
    show GatherDims.start _ (ix3 b n e) idx 1 + GatherDims.batchCoord _ (ix3 b n e) 1 + GatherDims.offCoord _ (ix3 b n e) 1 = _
    rw [GatherDims.batchCoord_eq_zero _ _ _ (show (1 : Fin 3) ∉ [] from List.not_mem_nil),
      GatherDims.offCoord_eq_zero _ _ _ (fun h => ((GatherDims.mem_sKept _ _).mp h).1 (show (1 : Fin 3) ∈ [0, 1] from by decide))]
    simp only [Nat.add_zero]
    unfold GatherDims.start
    rw [dif_pos (show (1 : Fin 3) ∈ GatherDims.startIndexMap gather_S8x4096x64_S8x80000x2_S8x80000x64_2_01_n_n_01_2_1164 from by decide)]
    have hsi : GatherDims.siIdx gather_S8x4096x64_S8x80000x2_S8x80000x64_2_01_n_n_01_2_1164 (ix3 b n e)
        ⟨List.idxOf (1 : Fin 3) (GatherDims.startIndexMap gather_S8x4096x64_S8x80000x2_S8x80000x64_2_01_n_n_01_2_1164),
          List.idxOf_lt_length_iff.2 (show (1 : Fin 3) ∈ GatherDims.startIndexMap gather_S8x4096x64_S8x80000x2_S8x80000x64_2_01_n_n_01_2_1164 from by decide)⟩ = ix3 b n (1 : Fin 2) := by
      funext c; refine Fin.ext ?_
      match c with
      | ⟨0, _⟩ => rfl
      | ⟨1, _⟩ => rfl
      | ⟨2, _⟩ => rfl
    rw [hsi]
    rfl
  | ⟨2, _⟩ =>
    show GatherDims.start _ (ix3 b n e) idx 2 + GatherDims.batchCoord _ (ix3 b n e) 2 + GatherDims.offCoord _ (ix3 b n e) 2 = e.val
    rw [GatherDims.batchCoord_eq_zero _ _ _ (show (2 : Fin 3) ∉ [] from List.not_mem_nil), Nat.add_zero]
    unfold GatherDims.start
    rw [dif_neg (show (2 : Fin 3) ∉ GatherDims.startIndexMap gather_S8x4096x64_S8x80000x2_S8x80000x64_2_01_n_n_01_2_1164 from by decide), Nat.zero_add]
    unfold GatherDims.offCoord
    rw [dif_pos ((GatherDims.mem_sKept _ _).mpr ⟨show (2 : Fin 3) ∉ [0, 1] from by decide, show (2 : Fin 3) ∉ [] from List.not_mem_nil⟩)]
    rfl

/-- The reference's start indices: the pairs (branch, code), each component counted from the end where negative. -/
def pairsR (cd : IVec S8x80000 32) : IVec S8x80000x2 32 :=
  concatenate S8x80000x2 2 [⟨S8x80000x1, (broadcastInDim S8x80000x1 ![0, 1] bcast_S8x80000_S8x80000x1_0_1 (broadcastInDim S8x80000 ![0, 1] bcast_S8x1_S8x80000_0_1 (select (cmpi .slt (broadcastInDim S8x1 ![0] bcast_S8_S8x1_0 (iotaInDim S8 32 0)) (broadcastInDim S8x1 ![] bcast_S_S8x1 (constantI S_ 32 0#32))) (addi (broadcastInDim S8x1 ![0] bcast_S8_S8x1_0 (iotaInDim S8 32 0)) (broadcastInDim S8x1 ![] bcast_S_S8x1 (constantI S_ 32 8#32))) (broadcastInDim S8x1 ![0] bcast_S8_S8x1_0 (iotaInDim S8 32 0)))))⟩, ⟨S8x80000x1, (broadcastInDim S8x80000x1 ![0, 1] bcast_S8x80000_S8x80000x1_0_1 (select (cmpi .slt cd (broadcastInDim S8x80000 ![] bcast_S_S8x80000 (constantI S_ 32 0#32))) (addi cd (broadcastInDim S8x80000 ![] bcast_S_S8x80000 (constantI S_ 32 4096#32))) cd))⟩] concatenates_S8x80000x1_S8x80000x1_S8x80000x2_d2

/-- The reference's lookup is its gather at those pairs. -/
theorem lookupRef_eq {F : FTy → Type} [FloatOps F] (cb : FVec F S8x4096x64 .f32) (cd : IVec S8x80000 32) :
    Cert.Shared.lookupRef cb cd = Host.gather gather_S8x4096x64_S8x80000x2_S8x80000x64_2_01_n_n_01_2_1164 cb (pairsR cd) := rfl

/-- The first component of the pair at (b, n) is the branch number b. -/
theorem pairsR_apply0 (cd : IVec S8x80000 32) (b : Fin 8) (n : Fin 80000) :
    pairsR cd (ix3 b n (0 : Fin 2)) = BitVec.ofNat 32 b.val := by
  unfold pairsR
  rw [concatenate_pair_apply_left (t := S8x80000x2) (s₁ := S8x80000x1) (s₂ := S8x80000x1) (2 : Fin 3) _ _ _ (ix3 b n (0 : Fin 2)) rfl (ix3 b n (0 : Fin 1))
    (fun a => match a with | ⟨0, _⟩ => rfl | ⟨1, _⟩ => rfl | ⟨2, _⟩ => rfl)]
  show Scalar.select (IntOp.cmpi .slt (BitVec.ofNat 32 b.val) 0#32) (IntOp.addi (BitVec.ofNat 32 b.val) 8#32) (BitVec.ofNat 32 b.val)
    = BitVec.ofNat 32 b.val
  exact norm_word _ _ (by have := b.isLt; rw [BitVec.toNat_ofNat]; omega)

/-- The second component of the pair at (b, n) is the code of neighbour n in branch b. -/
theorem pairsR_apply1 (cd : IVec S8x80000 32) (hcd : ∀ j, (cd j).toNat < 4096) (b : Fin 8) (n : Fin 80000) :
    pairsR cd (ix3 b n (1 : Fin 2)) = cd (ix2 b n) := by
  unfold pairsR
  rw [concatenate_pair_apply_right (t := S8x80000x2) (s₁ := S8x80000x1) (s₂ := S8x80000x1) (2 : Fin 3) _ _ _ (ix3 b n (1 : Fin 2)) rfl rfl (ix3 b n (0 : Fin 1))
    (fun a h => match a, h with | ⟨0, _⟩, _ => rfl | ⟨1, _⟩, _ => rfl | ⟨2, _⟩, h => absurd (Fin.ext rfl) h) rfl]
  show Scalar.select (IntOp.cmpi .slt (cd _) 0#32) (IntOp.addi (cd _) 4096#32) (cd _) = cd (ix2 b n)
  refine (norm_word _ _ (Nat.lt_trans (hcd _) (by decide))).trans ?_
  congr 1
  funext a
  match a with
  | ⟨0, _⟩ => rfl
  | ⟨1, _⟩ => rfl

end ReferenceGather

/-- With every code in range the kernel's filled lookup is the reference's lookup, for any float values. -/
theorem lookupK_eq_lookupRef {F : FTy → Type} [FloatOps F] (cb : FVec F Cert.KernelIdeal.S8x4096x64 .f32)
    (cd : IVec Cert.KernelIdeal.S8x80000 32) (hcd : ∀ j, (cd j).toNat < 4096) :
    Cert.LookupK.lookupK cb cd = Cert.Shared.lookupRef cb cd := by
  unfold Cert.LookupK.lookupK
  rw [Cert.TakeFill.select_of_mask_one _ _ _ (codeOkK_one cd hcd), lookupRef_eq]
  funext j
  obtain ⟨b, n, e, rfl⟩ : ∃ b n e, j = ix3 b n e := ⟨j 0, j 1, j 2, eq_ix3 j⟩
  rw [gatherK_apply, gatherR_apply]
  congr 1
  funext a
  refine Fin.ext ?_
  match a with
  | ⟨0, _⟩ =>
    show b.val = min (pairsR cd (ix3 b n (0 : Fin 2))).toInt.toNat 7
    have hb := b.isLt
    rw [pairsR_apply0, StableHlo.Predicate.toInt_ofNat_small _ (by omega), Int.toNat_natCast]
    omega
  | ⟨1, _⟩ =>
    show min (Cert.LookupK.codeIdxK cd (ix4 b n e (0 : Fin 1))).toInt.toNat 4095
      = min (pairsR cd (ix3 b n (1 : Fin 2))).toInt.toNat 4095
    rw [codeIdxK_apply cd hcd, pairsR_apply1 cd hcd]
  | ⟨2, _⟩ => rfl

end Cert.Lookup

end
-- ==== Proof.RefStages.lean ====
/-
  The reference's three dense stages are the specification's functions. The linear stage: a concatenate of the batch
  rows over the neighbour rows read row by row, under a dot_general read as a sum over the contracted axis. The output
  transform: two dot_generals and two bias vectors broadcast down the rows. The scalar term: a reduce-add of every
  entry of the elementwise product, started from zero, times the rate.
-/
import proofs.«431223_j103079215401_2_alg».proof.Proof.Spec
import proofs.«431223_j103079215401_2_alg».proof.Proof.Shared
import Idealize.ShloMosaic.Lib.ValueIdx
import Idealize.ShloMosaic.Lib.ValueLayout
import Idealize.ShloMosaic.Lib.Pipeline.Value
import Idealize.ShloMosaic.PureOps.Ideal.Laws

noncomputable section

namespace Cert.RefStages

open Cert.ReferenceIdeal Cert.ReferenceIdeal.Gen Idealize.ShloMosaic Idealize.ShloMosaic.ValueIdx
open Cert.Shared

/-! ### A dot_general over the one contracted axis, read at an index -/

/-- Output row axis of the left operand: it is the output index's row. -/
theorem lhsA_0 (i : S100000x256.Idx) (c : dot_S100000x256_S256x256_S100000x256_1_0_0_1_n_n.contr.Idx) :
    (dot_S100000x256_S256x256_S100000x256_1_0_0_1_n_n.lhsIdx i c 0).val = (i 0).val := by
  unfold DotDims.lhsIdx
  rw [dif_neg (show ¬(0 : Fin S100000x256.rank) ∈ dot_S100000x256_S256x256_S100000x256_1_0_0_1_n_n.lhsBatch by decide), dif_pos (show (0 : Fin S100000x256.rank) ∈ dot_S100000x256_S256x256_S100000x256_1_0_0_1_n_n.lhsNonContracting by decide)]
  rfl
/-- Contracted axis of the left operand: it is the contraction index. -/
theorem lhsA_1 (i : S100000x256.Idx) (c : dot_S100000x256_S256x256_S100000x256_1_0_0_1_n_n.contr.Idx) :
    (dot_S100000x256_S256x256_S100000x256_1_0_0_1_n_n.lhsIdx i c 1).val = (c ⟨0, by decide⟩).val :=
  dot_S100000x256_S256x256_S100000x256_1_0_0_1_n_n.lhsIdx_val_of_single rfl i c
/-- Contracted axis of the right operand: it is the contraction index. -/
theorem rhsA_0 (i : S100000x256.Idx) (c : dot_S100000x256_S256x256_S100000x256_1_0_0_1_n_n.contr.Idx) :
    (dot_S100000x256_S256x256_S100000x256_1_0_0_1_n_n.rhsIdx i c 0).val = (c ⟨0, by decide⟩).val :=
  dot_S100000x256_S256x256_S100000x256_1_0_0_1_n_n.rhsIdx_val_of_single rfl i c
/-- Output column axis of the right operand: it is the output index's column. -/
theorem rhsA_1 (i : S100000x256.Idx) (c : dot_S100000x256_S256x256_S100000x256_1_0_0_1_n_n.contr.Idx) :
    (dot_S100000x256_S256x256_S100000x256_1_0_0_1_n_n.rhsIdx i c 1).val = (i 1).val := by
  unfold DotDims.rhsIdx
  rw [dif_neg (show ¬(1 : Fin S256x256.rank) ∈ dot_S100000x256_S256x256_S100000x256_1_0_0_1_n_n.rhsBatch by decide), dif_pos (show (1 : Fin S256x256.rank) ∈ dot_S100000x256_S256x256_S100000x256_1_0_0_1_n_n.rhsNonContracting by decide)]
  rfl

/-- The [100000, 256] × [256, 256] dot_general at (r, q) is the sum over k of left (r, k) times right (k, q). -/
theorem dotA_apply (y : FVec Ideal S100000x256 .f32) (w : FVec Ideal S256x256 .f32) (r : Fin 100000) (q : Fin 256) :
    Host.dotGeneral dot_S100000x256_S256x256_S100000x256_1_0_0_1_n_n none y w (ix2 r q) = ∑ k : Fin 256, y (ix2 r k) * w (ix2 k q) := by
  simp only [Host.dotGeneral]
  rw [Ideal.dotGeneral_apply, ← Equiv.sum_comp (contrEquiv1 dot_S100000x256_S256x256_S100000x256_1_0_0_1_n_n 256 rfl rfl).symm]
  refine Finset.sum_congr rfl fun k _ => ?_
  have hk := contrEquiv1_symm_val dot_S100000x256_S256x256_S100000x256_1_0_0_1_n_n 256 rfl rfl k
  have el : dot_S100000x256_S256x256_S100000x256_1_0_0_1_n_n.lhsIdx (ix2 r q) ((contrEquiv1 dot_S100000x256_S256x256_S100000x256_1_0_0_1_n_n 256 rfl rfl).symm k) = ix2 r k := funext fun a => Fin.ext (by
    match a with
    | ⟨0, _⟩ => exact lhsA_0 _ _
    | ⟨1, _⟩ => exact (lhsA_1 _ _).trans hk)
  have er : dot_S100000x256_S256x256_S100000x256_1_0_0_1_n_n.rhsIdx (ix2 r q) ((contrEquiv1 dot_S100000x256_S256x256_S100000x256_1_0_0_1_n_n 256 rfl rfl).symm k) = ix2 k q := funext fun a => Fin.ext (by
    match a with
    | ⟨0, _⟩ => exact (rhsA_0 _ _).trans hk
    | ⟨1, _⟩ => exact rhsA_1 _ _)
  rw [el, er]

/-- The same at any index, in the specification's spelling of the matrix product. -/
theorem dotA_eq_mm (y : FVec Ideal S100000x256 .f32) (w : FVec Ideal S256x256 .f32) :
    Host.dotGeneral dot_S100000x256_S256x256_S100000x256_1_0_0_1_n_n none y w = Cert.Spec.mm y w := by
  funext i
  rw [eq_ix2 i]
  exact dotA_apply y w (i 0) (i 1)

/-- Output row axis of the left operand: it is the output index's row. -/
theorem lhsB_0 (i : S20000x256.Idx) (c : dot_S20000x256_S256x256_S20000x256_1_0_0_1_n_n.contr.Idx) :
    (dot_S20000x256_S256x256_S20000x256_1_0_0_1_n_n.lhsIdx i c 0).val = (i 0).val := by
  unfold DotDims.lhsIdx
  rw [dif_neg (show ¬(0 : Fin S20000x256.rank) ∈ dot_S20000x256_S256x256_S20000x256_1_0_0_1_n_n.lhsBatch by decide), dif_pos (show (0 : Fin S20000x256.rank) ∈ dot_S20000x256_S256x256_S20000x256_1_0_0_1_n_n.lhsNonContracting by decide)]
  rfl
/-- Contracted axis of the left operand: it is the contraction index. -/
theorem lhsB_1 (i : S20000x256.Idx) (c : dot_S20000x256_S256x256_S20000x256_1_0_0_1_n_n.contr.Idx) :
    (dot_S20000x256_S256x256_S20000x256_1_0_0_1_n_n.lhsIdx i c 1).val = (c ⟨0, by decide⟩).val :=
  dot_S20000x256_S256x256_S20000x256_1_0_0_1_n_n.lhsIdx_val_of_single rfl i c
/-- Contracted axis of the right operand: it is the contraction index. -/
theorem rhsB_0 (i : S20000x256.Idx) (c : dot_S20000x256_S256x256_S20000x256_1_0_0_1_n_n.contr.Idx) :
    (dot_S20000x256_S256x256_S20000x256_1_0_0_1_n_n.rhsIdx i c 0).val = (c ⟨0, by decide⟩).val :=
  dot_S20000x256_S256x256_S20000x256_1_0_0_1_n_n.rhsIdx_val_of_single rfl i c
/-- Output column axis of the right operand: it is the output index's column. -/
theorem rhsB_1 (i : S20000x256.Idx) (c : dot_S20000x256_S256x256_S20000x256_1_0_0_1_n_n.contr.Idx) :
    (dot_S20000x256_S256x256_S20000x256_1_0_0_1_n_n.rhsIdx i c 1).val = (i 1).val := by
  unfold DotDims.rhsIdx
  rw [dif_neg (show ¬(1 : Fin S256x256.rank) ∈ dot_S20000x256_S256x256_S20000x256_1_0_0_1_n_n.rhsBatch by decide), dif_pos (show (1 : Fin S256x256.rank) ∈ dot_S20000x256_S256x256_S20000x256_1_0_0_1_n_n.rhsNonContracting by decide)]
  rfl

/-- The [20000, 256] × [256, 256] dot_general at (r, q) is the sum over k of left (r, k) times right (k, q). -/
theorem dotB_apply (y : FVec Ideal S20000x256 .f32) (w : FVec Ideal S256x256 .f32) (r : Fin 20000) (q : Fin 256) :
    Host.dotGeneral dot_S20000x256_S256x256_S20000x256_1_0_0_1_n_n none y w (ix2 r q) = ∑ k : Fin 256, y (ix2 r k) * w (ix2 k q) := by
  simp only [Host.dotGeneral]
  rw [Ideal.dotGeneral_apply, ← Equiv.sum_comp (contrEquiv1 dot_S20000x256_S256x256_S20000x256_1_0_0_1_n_n 256 rfl rfl).symm]
  refine Finset.sum_congr rfl fun k _ => ?_
  have hk := contrEquiv1_symm_val dot_S20000x256_S256x256_S20000x256_1_0_0_1_n_n 256 rfl rfl k
  have el : dot_S20000x256_S256x256_S20000x256_1_0_0_1_n_n.lhsIdx (ix2 r q) ((contrEquiv1 dot_S20000x256_S256x256_S20000x256_1_0_0_1_n_n 256 rfl rfl).symm k) = ix2 r k := funext fun a => Fin.ext (by
    match a with
    | ⟨0, _⟩ => exact lhsB_0 _ _
    | ⟨1, _⟩ => exact (lhsB_1 _ _).trans hk)
  have er : dot_S20000x256_S256x256_S20000x256_1_0_0_1_n_n.rhsIdx (ix2 r q) ((contrEquiv1 dot_S20000x256_S256x256_S20000x256_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-- The same at any index, in the specification's spelling of the matrix product. -/
theorem dotB_eq_mm (y : FVec Ideal S20000x256 .f32) (w : FVec Ideal S256x256 .f32) :
    Host.dotGeneral dot_S20000x256_S256x256_S20000x256_1_0_0_1_n_n none y w = Cert.Spec.mm y w := by
  funext i
  rw [eq_ix2 i]
  exact dotB_apply y w (i 0) (i 1)

/-! ### The concatenate along the rows, read at an index -/

/-- The batch rows over the neighbour rows: row r is the first operand's row r below 20000, else the second operand's
    row r − 20000. -/
theorem cat_eq_rowsCat (x : FVec Ideal S20000x256 .f32) (xf : FVec Ideal S80000x256 .f32) :
    concatenate S100000x256 0 [⟨S20000x256, x⟩, ⟨S80000x256, xf⟩] concatenates_S20000x256_S80000x256_S100000x256_d0
      = Cert.Spec.rowsCat x xf := by
  funext i
  unfold Cert.Spec.rowsCat
  by_cases h : (i 0).val < 20000
  · rw [dif_pos h]
    exact concatenate_pair_apply_left (0 : Fin S100000x256.rank) x xf concatenates_S20000x256_S80000x256_S100000x256_d0 i rfl _
      (fun b => match b with
        | ⟨0, _⟩ => rfl
        | ⟨1, _⟩ => rfl)
  · rw [dif_neg h]
    have h0 : (i 0).val < 100000 := idx2_lt0 i
    exact concatenate_pair_apply_right (0 : Fin S100000x256.rank) x xf concatenates_S20000x256_S80000x256_S100000x256_d0 i rfl rfl _
      (fun b hb => match b, hb with
        | ⟨0, _⟩, hb => absurd rfl hb
        | ⟨1, _⟩, _ => rfl)
      (by show (i 0).val - 20000 + 20000 = (i 0).val; omega)

/-! ### The bias row broadcast down the rows, read at an index -/

/-- A [256] vector broadcast to [1, 256] and then down 20000 rows reads the vector at the column. -/
theorem bias_apply (b : FVec Ideal S256 .f32) (i : S20000x256.Idx) :
    broadcastInDim S20000x256 ![0, 1] bcast_S1x256_S20000x256_0_1 (broadcastInDim S1x256 ![1] bcast_S256_S1x256_1 b) i
      = b (ix1 (n := 256) ⟨(i 1).val, idx2_lt1 i⟩) := by
  refine (broadcastInDim_apply _ bcast_S1x256_S20000x256_0_1 _ i (ix2 (n0 := 1) (n1 := 256) 0 ⟨(i 1).val, idx2_lt1 i⟩) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])).trans ?_
  exact broadcastInDim_apply _ bcast_S256_S1x256_1 b _ (ix1 (n := 256) ⟨(i 1).val, idx2_lt1 i⟩) (fun a => match a with
    | ⟨0, _⟩ => by show (i 1).val = if (256 : Nat) = 1 then 0 else (i 1).val; rw [if_neg (by decide)])

/-- The reference's linear stage is the specification's: the concatenate read row by row, the dot_general as a sum. -/
theorem xwRef_eq (x : FVec Ideal S20000x256 .f32) (xf : FVec Ideal S80000x256 .f32) (w : FVec Ideal S256x256 .f32) :
    xwRef (F := Ideal) x xf w = Cert.Spec.gemm1 x xf w := by
  unfold xwRef Cert.Spec.gemm1
  rw [cat_eq_rowsCat x xf]
  exact dotA_eq_mm _ w

/-- The reference's output transform is the specification's. -/
theorem outRef_eq (xo x : FVec Ideal S20000x256 .f32) (wt ws : FVec Ideal S256x256 .f32) (bt bs : FVec Ideal S256 .f32) :
    outRef (F := Ideal) xo x wt ws bt bs = Cert.Spec.dual xo x wt ws bt bs := by
  funext i
  unfold outRef Cert.Spec.dual
  rw [addf_apply, addf_apply, addf_apply, bias_apply bt i, bias_apply bs i, dotB_eq_mm xo wt, dotB_eq_mm x ws]

/-- The reference's scalar term is the specification's. -/
theorem infoRef_eq (a g : FVec Ideal S80000x256 .f32) (wr : FVec Ideal S1 .f32) :
    infoRef (F := Ideal) a g wr = Cert.Spec.info a g wr := by
  funext j
  unfold infoRef Cert.Spec.info
  rw [mulf_apply]
  have hsum : Host.reduceAdd (F := Ideal) (mulf a g) (constant (F := Ideal) S_ .f32 0x00000000#32) reducesTo_S80000x256_S_d0_1 h_S_ j
      = ∑ i : S80000x256.Idx, a i * g i := by
    generalize hy : mulf a g = y
    simp only [Host.reduceAdd, Ideal.hostReduceAdd_def]
    refine (Ideal.hostReduceAdd_total reducesTo_S80000x256_S_d0_1 (fun b => b.elim0) y _ j).trans ?_
    rw [constant_apply, Ideal.ofBits_zero_f32, zero_add, ← hy]
    rfl
  have hwr : shapeCast S_ wr shapeCasts_S1_S_ j = wr (ix1 (n := 1) 0) :=
    shapeCast_apply wr shapeCasts_S1_S_ j (ix1 (n := 1) 0) (by
      rw [Shape.rowMajor_val_one]
      exact (Shape.rowMajorPi_zero _ _).symm)
  rw [hsum, hwr]

end Cert.RefStages

end
-- ==== Proof.KOut.lean ====
/-
  Three small facts the kernel program's results need at the extended reals. The scalar result: the reduce-add of the
  [20, 1, 128] array of partial sums, started from zero, times the rate, is the specification's scalar term. The bias
  row: the two bias vectors added and reshaped to a [1, 256] row read at column q. The source rows: a gather of rows
  followed by a widening of the float format is the gather (a change of float format is the identity on the
  extended reals).
-/
import proofs.«431223_j103079215401_2_alg».proof.KernelIdeal
import proofs.«431223_j103079215401_2_alg».proof.Proof.Gen.KernelIdeal
import proofs.«431223_j103079215401_2_alg».proof.Proof.Spec
import proofs.«431223_j103079215401_2_alg».proof.Proof.Shared
import Idealize.ShloMosaic.Lib.ValueIdx
import Idealize.ShloMosaic.Lib.ValueLayout
import Idealize.ShloMosaic.Lib.Pipeline.Value
import Idealize.ShloMosaic.PureOps.Ideal.Laws

noncomputable section

namespace Cert.KOut

open Cert.KernelIdeal Cert.KernelIdeal.Gen Idealize.ShloMosaic Idealize.ShloMosaic.ValueIdx

/-- The kernel program's scalar result from the partial sums. -/
theorem info_of_partials (a g : Cert.Spec.Arr2 80000 256) (wr : FVec Ideal S1 .f32) :
    mulf (Host.reduceAdd (F := Ideal) (Cert.Spec.partials a g : FVec Ideal S20x1x128 .f32) (constant (F := Ideal) S_ .f32 0x00000000#32) reducesTo_S20x1x128_S_d0_1_2 h_S_) (shapeCast _ wr shapeCasts_S1_S_)
      = Cert.Spec.info a g wr := by
  funext j
  rw [mulf_apply]
  show Ideal.hostReduceAdd reducesTo_S20x1x128_S_d0_1_2 (Cert.Spec.partials a g)
      ((constant (F := Ideal) S_ .f32 0x00000000#32) (Shape.Idx.first h_S_)) j * _ = _
  rw [Ideal.hostReduceAdd_total _ (fun b => b.elim0), constant_apply, Ideal.ofBits_zero_f32, zero_add,
    Cert.Spec.sum_partials]
  unfold Cert.Spec.info
  congr 1
  exact shapeCast_apply wr _ j (ix1 0) (by
    rw [Shape.rowMajor_val_one]
    exact (Shape.rowMajorPi_zero _ j).symm)

/-- The summed bias row at column q. -/
theorem bias_row (bt bs : FVec Ideal S256 .f32) (q : Fin 256) :
    (shapeCast _ (addf bt bs) shapeCasts_S256_S1x256 : FVec Ideal S1x256 .f32) (ix2 (n0 := 1) (n1 := 256) 0 q) = bt (ix1 q) + bs (ix1 q) := by
  exact (shapeCast_a_1a_apply (addf bt bs) _ 0 q).trans (addf_apply bt bs _)

/-- The gathered source rows widened from bf16 are the reference's gathered source rows. -/
theorem srcRows_extf (xw : FVec Ideal S100000x256 .bf16) (ei : IVec S2x800000 32) :
    (extf .f32 (Host.gather gather_S100000x256_S800000x1_S800000x256_1_0_n_n_0_1_1256 xw (Cert.Shared.srcIdx ei)) bitsLt_bf16_f32 : FVec Ideal S800000x256 .f32)
      = Cert.Shared.srcRows (F := Ideal) xw ei := by
  funext j
  rw [extf_apply]
  rfl

end Cert.KOut

end
-- ==== Proof.KValue.lean ====
/-
  The kernel program's two results as the shared stages of the reference applied to its arguments, where every
  neighbour position lies in [0, 200000) and every code in [0, 4096).

  Region 0's output is the specification's linear stage of the batch rows and the looked-up feature rows; with the
  index ranges the filled lookups are the plain ones, and the specification's linear stage is the reference's. The edge
  aggregation is the same host stage in both programs (the kernel program widens the gathered bf16 rows, which is the
  identity on the extended reals). Region 2's output is the output transform grouped (xo·Wt + x·Ws) + (bt + bs), which is
  the reference's (xo·Wt + bt) + (x·Ws + bs). Region 1's partial sums, reduced and scaled by the rate, are the scalar
  term of the aggregate's neighbour rows against the gradient rows.
-/
import proofs.«431223_j103079215401_2_alg».proof.Proof.KChain
import proofs.«431223_j103079215401_2_alg».proof.Proof.RegionGemm
import proofs.«431223_j103079215401_2_alg».proof.Proof.RegionReduce
import proofs.«431223_j103079215401_2_alg».proof.Proof.RegionDual
import proofs.«431223_j103079215401_2_alg».proof.Proof.Gathers
import proofs.«431223_j103079215401_2_alg».proof.Proof.RefStages
import proofs.«431223_j103079215401_2_alg».proof.Proof.KOut

set_option maxRecDepth 16384

noncomputable section

namespace Cert.KernelIdeal.KVal

open Cert.KernelIdeal Cert.KernelIdeal.Gen Cert.KernelIdeal.GenP Cert.KernelIdeal.Chain Cert.KernelIdeal.Val
open Idealize.ShloMosaic Idealize.ShloMosaic.TcCoe Idealize.SL.Sem

variable (m : (ℓ : Loc nD τ sig) → Buf (Elt Ideal) ℓ) (ρ : Dev nD → PrngReg)

/-- The reference's lookup of the kernel program's arguments. -/
abbrev lk (c : Dev nD) : FVec Ideal S8x80000x64 .f32 :=
  Cert.Shared.lookupRef (F := Ideal) (m ((c : Thread nD τ).loc main_arg2)) (Cert.Shared.codes (m ((c : Thread nD τ).loc main_arg10)) (m ((c : Thread nD τ).loc main_arg11)))

/-- The aggregate of the kernel program's arguments, by the reference's stages. -/
abbrev aggK (c : Dev nD) : FVec Ideal S100000x256 .f32 :=
  Cert.Shared.agg (F := Ideal) (Cert.Shared.xwRef (m ((c : Thread nD τ).loc main_arg0)) (Cert.Shared.splitX (lk m c)) (m ((c : Thread nD τ).loc main_arg3)))
    (m ((c : Thread nD τ).loc main_arg12)) (m ((c : Thread nD τ).loc main_arg1)) (m ((c : Thread nD τ).loc main_arg4))

variable (hfoi : ∀ c : Dev nD, ∀ n, ((m ((c : Thread nD τ).loc main_arg11)) n).toNat < 200000)
variable (hci : ∀ c : Dev nD, ∀ i, ((m ((c : Thread nD τ).loc main_arg10)) i).toNat < 4096)

include hfoi hci in
/-- With the index ranges the kernel program's filled lookup is the reference's. -/
theorem lookup_eq (c : Dev nD) :
    Cert.LookupK.lookupK (F := Ideal) (m ((c : Thread nD τ).loc main_arg2)) (Cert.LookupK.codesK (m ((c : Thread nD τ).loc main_arg10)) (m ((c : Thread nD τ).loc main_arg11)))
      = lk m c := by
  rw [Cert.Lookup.codesK_eq_codes _ _ (hfoi c)]
  exact Cert.Lookup.lookupK_eq_lookupRef _ _ (Cert.Lookup.codes_lt _ _ (hci c))

include hfoi hci in
/-- Region 0's output array is the reference's linear stage. -/
theorem v10_eq (c : Dev nD) :
    W5 m ρ c (Proc.devRef .tc main_v10)
      = Cert.Shared.xwRef (F := Ideal) (m ((c : Thread nD τ).loc main_arg0)) (Cert.Shared.splitX (lk m c)) (m ((c : Thread nD τ).loc main_arg3)) := by
  have h0 : V4 m ρ c main_arg0 = m ((c : Thread nD τ).loc main_arg0) := main_arg0_W4 m ρ c
  have h3 : V4 m ρ c main_arg3 = m ((c : Thread nD τ).loc main_arg3) := main_arg3_W4 m ρ c
  have h6 : V4 m ρ c main_v6 = Cert.Shared.splitX (lk m c) := (v6_W4 m ρ c).trans (by rw [lookup_eq m hfoi hci c])
  rw [v10_W5, gemm_value (V4 m ρ) c, h0, h3, h6, Cert.RefStages.xwRef_eq]

include hfoi hci in
/-- The aggregate at region 1's entry is the reference's aggregate. -/
theorem v31_eq (c : Dev nD) : W6 m ρ c (Proc.devRef .tc main_v31) = aggK m c := by
  rw [v31_W6, v10_eq m ρ hfoi hci c]
  exact congrArg (fun g => Cert.Shared.aggOf (F := Ideal) g (m ((c : Thread nD τ).loc main_arg12)) (m ((c : Thread nD τ).loc main_arg1)) (m ((c : Thread nD τ).loc main_arg4)))
    (Cert.KOut.srcRows_extf _ _)

include hfoi hci in
/-- The first result is the reference's output transform of the aggregate's batch rows. -/
theorem out_eq (c : Dev nD) :
    W9 m ρ c (Proc.devRef .tc main_v40)
      = Cert.Shared.outRef (F := Ideal) (Cert.Shared.headRows (aggK m c)) (m ((c : Thread nD τ).loc main_arg0)) (m ((c : Thread nD τ).loc main_arg5))
          (m ((c : Thread nD τ).loc main_arg7)) (m ((c : Thread nD τ).loc main_arg6)) (m ((c : Thread nD τ).loc main_arg8)) := by
  have h37 : V8 m ρ c main_v37 = Cert.Shared.headRows (aggK m c) := (v37_W8 m ρ c).trans (by rw [v31_eq m ρ hfoi hci c])
  have h0 : V8 m ρ c main_arg0 = m ((c : Thread nD τ).loc main_arg0) := main_arg0_W8 m ρ c
  have h5 : V8 m ρ c main_arg5 = m ((c : Thread nD τ).loc main_arg5) := main_arg5_W8 m ρ c
  have h7 : V8 m ρ c main_arg7 = m ((c : Thread nD τ).loc main_arg7) := main_arg7_W8 m ρ c
  have h39 : V8 m ρ c main_v39 = (shapeCast S1x256 (addf (F := Ideal) (m ((c : Thread nD τ).loc main_arg6) : FVec Ideal S256 .f32) (m ((c : Thread nD τ).loc main_arg8) : FVec Ideal S256 .f32)) shapeCasts_S256_S1x256 : FVec Ideal S1x256 .f32) := v39_W8 m ρ c
  rw [v40_W9, dual_value (V8 m ρ) c, h37, h0, h5, h7, h39, Cert.RefStages.outRef_eq]
  exact Cert.Spec.dualK_eq_dual _ _ _ _ _ _ _ (fun q => Cert.KOut.bias_row _ _ q)

include hfoi hci in
/-- The second result is the reference's scalar term of the aggregate's neighbour rows against the gradient rows. -/
theorem info_eq (c : Dev nD) :
    W9 m ρ c (Proc.devRef .tc main_v36)
      = Cert.Shared.infoRef (F := Ideal) (Cert.Shared.tailRows (aggK m c)) (Cert.Shared.splitG (lk m c)) (m ((c : Thread nD τ).loc main_arg9)) := by
  have h32 : V6 m ρ c main_v32 = Cert.Shared.tailRows (aggK m c) := (v32_W6 m ρ c).trans (by rw [v31_eq m ρ hfoi hci c])
  have h9 : V6 m ρ c main_v9 = Cert.Shared.splitG (lk m c) := ((v9_W6 m ρ c).trans (v9_W4 m ρ c)).trans (by rw [lookup_eq m hfoi hci c])
  rw [v36_W9, v36_W8, v33_W7, reduce_value (V6 m ρ) c, h32, h9, Cert.RefStages.infoRef_eq]
  exact Cert.KOut.info_of_partials _ _ _

end Cert.KernelIdeal.KVal

end
-- ==== Proof.RefValue.lean ====
/-
  What the reference computes, read off its generated run: each of its two results is the shared stages composed —
  the output transform of the aggregate's batch rows, and the scalar term of the aggregate's neighbour rows against
  the gradient rows — by unfolding the stages' names.
-/
import proofs.«431223_j103079215401_2_alg».proof.Proof.Gen.ReferenceIdeal.Run
import proofs.«431223_j103079215401_2_alg».proof.Proof.Shared

set_option maxRecDepth 16384

noncomputable section

namespace Cert.RefVal

open Cert.ReferenceIdeal Cert.ReferenceIdeal.Gen Idealize.ShloMosaic Idealize.ShloMosaic.TcCoe Idealize.SL.Sem
open Cert.Shared

variable {F : FTy → Type} [FloatOps F]

/-- The aggregate the reference computes from its arguments. -/
def aggR (m : (ℓ : Loc nD τ sig) → Buf (Elt F) ℓ) (c : Dev nD) : FVec F S100000x256 .f32 :=
  agg (xwRef (m ((c.tc : Thread nD τ).loc main_arg0))
      (splitX (lookupRef (m ((c.tc : Thread nD τ).loc main_arg2)) (codes (m ((c.tc : Thread nD τ).loc main_arg10)) (m ((c.tc : Thread nD τ).loc main_arg11)))))
      (m ((c.tc : Thread nD τ).loc main_arg3)))
    (m ((c.tc : Thread nD τ).loc main_arg12)) (m ((c.tc : Thread nD τ).loc main_arg1)) (m ((c.tc : Thread nD τ).loc main_arg4))

/-- The reference's first result is the output transform of the aggregate's batch rows. -/
theorem res0_eq (m : (ℓ : Loc nD τ sig) → Buf (Elt F) ℓ) (c : Dev nD) :
    Cert.ReferenceIdeal.Value.res_main_v66 (F := F) m c
      = outRef (headRows (aggR m c))
        (m ((c.tc : Thread nD τ).loc main_arg0)) (m ((c.tc : Thread nD τ).loc main_arg5)) (m ((c.tc : Thread nD τ).loc main_arg7))
        (m ((c.tc : Thread nD τ).loc main_arg6)) (m ((c.tc : Thread nD τ).loc main_arg8)) := by
  unfold Cert.ReferenceIdeal.Value.res_main_v66 aggR outRef headRows agg aggOf srcRows srcIdx xwRef splitX lookupRef codes normIdx
  rfl

/-- The reference's second result is the scalar term of the aggregate's neighbour rows against the gradient rows. -/
theorem res1_eq (m : (ℓ : Loc nD τ sig) → Buf (Elt F) ℓ) (c : Dev nD) :
    Cert.ReferenceIdeal.Value.res_main_v56 (F := F) m c
      = infoRef (tailRows (aggR m c))
        (splitG (lookupRef (m ((c.tc : Thread nD τ).loc main_arg2)) (codes (m ((c.tc : Thread nD τ).loc main_arg10)) (m ((c.tc : Thread nD τ).loc main_arg11)))))
        (m ((c.tc : Thread nD τ).loc main_arg9)) := by
  unfold Cert.ReferenceIdeal.Value.res_main_v56 aggR infoRef tailRows agg aggOf srcRows srcIdx xwRef splitX splitG lookupRef codes normIdx
  rfl

end Cert.RefVal

end
-- ==== Proof.PreDecode.lean ====
/-
  The precondition read at its last two conjuncts: every neighbour position lies in [0, 200000) and every entry of the
  code table in [0, 4096). The printed predicate is a chain of "and"s of whole-array "all" reductions; the last two
  links are the two index ranges, each an "and" of a signed ≥ 0 and a signed < bound, and a 32-bit word that is ≥ 0
  and < bound as a signed number is < bound as a natural number.
-/
import proofs.«431223_j103079215401_2_alg».proof.Pre_finite_inputs
import proofs.«431223_j103079215401_2_alg».proof.Proof.Gen.Pre_finite_inputs
import Idealize.ShloMosaic.Lib.ReduceAll
import Idealize.ShloMosaic.Lib.ValueIdx
import Idealize.ShloMosaic.Lib.StableHlo.Predicate

noncomputable section

namespace Cert.PreDecode

open Cert.Pre_finite_inputs Cert.Pre_finite_inputs.Gen Idealize.ShloMosaic

/-- A 32-bit word that tests ≥ 0 and < n as a signed number (n below 2³¹) is below n as a natural number: a
    nonnegative signed word has its top bit clear, so its signed and unsigned readings agree. -/
theorem toNat_lt_of_signed_range (w : BitVec 32) (n : Nat) (hn : n < 2 ^ 31)
    (h : IntOp.andi (IntOp.cmpi .sge w 0#32) (IntOp.cmpi .slt w (BitVec.ofNat 32 n)) = 1#1) : w.toNat < n := by
  obtain ⟨h0, h1⟩ := IntOp.andi_eq_one.1 h
  have h0' : (0#32 : BitVec 32).toInt ≤ w.toInt := IntOp.cmpi_sge.1 h0
  have h1' : w.toInt < (BitVec.ofNat 32 n).toInt := IntOp.cmpi_slt.1 h1
  rw [show (0#32 : BitVec 32).toInt = 0 from by decide] at h0'
  have hw : 2 * w.toNat < 2 ^ 32 := BitVec.toInt_pos_iff.1 h0'
  rw [BitVec.toInt_eq_toNat_of_lt hw, StableHlo.Predicate.toInt_ofNat_small n hn] at h1'
  exact_mod_cast h1'

/-- The last part of the printed predicate is the "and" of the conjunct it is handed, the "all" of the position range
    and the "all" of the code range: its `let`s read off. -/
theorem part3_eq {F : FTy → Type} [FloatOps F] (a10 : IVec S8x200000 32) (a11 : IVec S80000 32) (v48 : IVec S_ 1)
    (v50 : IVec S80000 1) :
    fn_part3 (F := F) a10 a11 v48 v50 =
      andi (andi v48
          (Host.reduce IntOp.andi
            (andi v50 (cmpi .slt a11 (broadcastInDim S80000 ![] Facts.bcast_S_S80000 (constantI S_ 32 200000#32))))
            (constantI S_ 1 1#1) Facts.reducesTo_S80000_S_d0 Facts.h_S_))
        (Host.reduce IntOp.andi
          (andi (cmpi .sge a10 (broadcastInDim S8x200000 ![] Facts.bcast_S_S8x200000 (constantI S_ 32 0#32)))
            (cmpi .slt a10 (broadcastInDim S8x200000 ![] Facts.bcast_S_S8x200000 (constantI S_ 32 4096#32))))
          (constantI S_ 1 1#1) Facts.reducesTo_S8x200000_S_d0_1 Facts.h_S_) := rfl

/-- The two ranges from the last part alone, handed the position array's ≥ 0 test. The scalar result is 1, so each of
    its three conjuncts is 1; an "all" that is 1 has a 1 at every element; an element of an "and" of two comparisons
    with a broadcast constant is the "and" of the two comparisons of that element with the constant. -/
theorem part3_ranges {F : FTy → Type} [FloatOps F] (a10 : IVec S8x200000 32) (a11 : IVec S80000 32) (v48 : IVec S_ 1)
    (h : fn_part3 (F := F) a10 a11 v48
        (cmpi .sge a11 (broadcastInDim S80000 ![] Facts.bcast_S_S80000 (constantI S_ 32 0#32))) = fun _ => 1#1) :
    (∀ n, (a11 n).toNat < 200000) ∧ (∀ i, (a10 i).toNat < 4096) := by
  haveI : Subsingleton S_.Idx := ⟨fun a b => funext fun d => d.elim0⟩
  have e := congrFun h ValueIdx.ix0
  rw [part3_eq] at e
  obtain ⟨e12, e3⟩ := IntOp.andi_eq_one.1 e
  obtain ⟨-, e2⟩ := IntOp.andi_eq_one.1 e12
  refine ⟨fun n => ?_, fun i => ?_⟩
  · exact toNat_lt_of_signed_range (a11 n) 200000 (by decide) (Host.reduce_andi_all _ _ _ _ _ e2 n)
  · exact toNat_lt_of_signed_range (a10 i) 4096 (by decide) (Host.reduce_andi_all _ _ _ _ _ e3 i)

/-- The two index ranges, from the precondition holding (for any float values: the integer conjuncts do not look at
    the floats). -/
theorem ranges {F : FTy → Type} [FloatOps F] (a0 : FVec F S20000x256 .f32) (a1 : FVec F S800000 .f32) (a2 : FVec F S8x4096x64 .f32)
    (a3 : FVec F S256x256 .f32) (a4 : FVec F S256 .f32) (a5 : FVec F S256x256 .f32) (a6 : FVec F S256 .f32)
    (a7 : FVec F S256x256 .f32) (a8 : FVec F S256 .f32) (a9 : FVec F S1 .f32) (a10 : IVec S8x200000 32)
    (a11 : IVec S80000 32) (a12 : IVec S2x800000 32)
    (h : Cert.Pre_finite_inputs.fn (F := F) a0 a1 a2 a3 a4 a5 a6 a7 a8 a9 a10 a11 a12 = fun _ => 1#1) :
    (∀ n, (a11 n).toNat < 200000) ∧ (∀ i, (a10 i).toNat < 4096) := by
  -- the earlier parts only hand arguments along: the whole predicate is its last part at some earlier conjunct
  obtain ⟨v48, hv⟩ : ∃ v48 : IVec S_ 1, Cert.Pre_finite_inputs.fn (F := F) a0 a1 a2 a3 a4 a5 a6 a7 a8 a9 a10 a11 a12
      = fn_part3 (F := F) a10 a11 v48
          (cmpi .sge a11 (broadcastInDim S80000 ![] Facts.bcast_S_S80000 (constantI S_ 32 0#32))) := ⟨_, rfl⟩
  exact part3_ranges a10 a11 v48 (hv ▸ h)

end Cert.PreDecode

end
-- ==== Proof.lean ====
/-
  The kernel (a graph convolution layer with a vector-quantized neighbour lookup: a linear stage, an edge-weighted
  aggregation, an output transform with a skip connection, and a scalar term against the looked-up gradient rows)
  equals its reference over the extended reals, where every neighbour position indexes the code table and every
  code indexes the codebook.

  The three dense stages run as tiled kernels; each tile's result is the specification's function of its inputs, and
  the tiles cover their arrays. Between them both programs run the same host stages on equal operands. Two things
  differ and are shown equal: the kernel program's lookups fill out-of-range reads where the reference's clamp, which
  agree once every index is in range; and the groupings of sums — the bias added once as bt + bs instead of twice,
  and the scalar term summed per tile of 4000 rows, scaled by 2⁻⁷ into 128 lanes and summed again — which agree because
  addition of extended reals is commutative and associative and 128 copies of t · 2⁻⁷ add up to t for every t.
  No finiteness of the float inputs is used.
-/
import proofs.«431223_j103079215401_2_alg».proof.Defs
import proofs.«431223_j103079215401_2_alg».proof.Proof.Gen.Kernel
import proofs.«431223_j103079215401_2_alg».proof.Proof.Gen.KernelIdeal
import proofs.«431223_j103079215401_2_alg».proof.Proof.Gen.ReferenceIdeal
import proofs.«431223_j103079215401_2_alg».proof.Proof.Gen.Pre_finite_inputs
import proofs.«431223_j103079215401_2_alg».proof.Proof.FrameKernel
import proofs.«431223_j103079215401_2_alg».proof.Proof.RunKernelIdeal
import proofs.«431223_j103079215401_2_alg».proof.Proof.KValue
import proofs.«431223_j103079215401_2_alg».proof.Proof.RefValue
import proofs.«431223_j103079215401_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.GenP.frame m ρ

theorem frame_pi : Cert.frame_KernelIdeal := fun m ρ _ => Cert.KernelIdeal.GenP.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the reference's stages of the (agreeing) arguments: the kernel program by its run read
    back through its regions and stretches, the reference by its run. -/
theorem algebraic : Cert.algebraic_KernelIdeal_ReferenceIdeal := by
  intro m ρ m' ρ' hpre hagree
  have hr := fun c : Dev Cert.KernelIdeal.nD => Cert.PreDecode.ranges (F := Ideal) _ _ _ _ _ _ _ _ _ _ _ _ _ (hpre c)
  have hfoi : ∀ c : Dev Cert.KernelIdeal.nD, ∀ n, ((m ((c.tc : Thread Cert.KernelIdeal.nD Cert.KernelIdeal.τ).loc Cert.KernelIdeal.main_arg11)) n).toNat < 200000 := fun c => (hr c).1
  have hci : ∀ c : Dev Cert.KernelIdeal.nD, ∀ i, ((m ((c.tc : Thread Cert.KernelIdeal.nD Cert.KernelIdeal.τ).loc Cert.KernelIdeal.main_arg10)) i).toNat < 4096 := fun c => (hr c).2
  refine ⟨fun c => Cert.Shared.outRef (F := Ideal) (Cert.Shared.headRows (Cert.KernelIdeal.KVal.aggK m c)) (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)),
    fun c => Cert.Shared.infoRef (F := Ideal) (Cert.Shared.tailRows (Cert.KernelIdeal.KVal.aggK m c)) (Cert.Shared.splitG (Cert.KernelIdeal.KVal.lk m c)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.GenP.run (F := Ideal) m ρ)
    obtain ⟨h40, h36, hargs⟩ := h c
    exact ⟨h40.trans (Cert.KernelIdeal.KVal.out_eq m ρ hfoi hci c), h36.trans (Cert.KernelIdeal.KVal.info_eq m ρ hfoi hci c), hargs⟩
  · refine (θ_run Cert.ReferenceIdeal.defs _ _).mono (fun r h c => ?_) (Cert.ReferenceIdeal.Value.run (F := Ideal) m' ρ')
    obtain ⟨h66, h56, hargs⟩ := h c
    obtain ⟨a0, a1, a2, a3, a4, a5, a6, a7, a8, a9, a10, a11, a12⟩ := hagree c
    refine ⟨h66.trans ?_, h56.trans ?_, hargs⟩
    · rw [Cert.RefVal.res0_eq]
      unfold Cert.RefVal.aggR
      rw [a0, a1, a2, a3, a4, a5, a6, a7, a8, a10, a11, a12]
    · rw [Cert.RefVal.res1_eq]
      unfold Cert.RefVal.aggR
      rw [a0, a1, a2, a3, a4, a9, a10, a11, a12]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
